-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x640000 : Shape := ⟨2, ![2, 640000]⟩
abbrev S100000 : Shape := ⟨1, ![100000]⟩
abbrev S100x10 : Shape := ⟨2, ![100, 10]⟩
abbrev S10x128 : Shape := ⟨2, ![10, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100x10 : S_.BroadcastsInDim S100x10 (![] : Fin 0 → Fin S100x10.rank)
  reducesTo_S100x10_S_d0_1 : S100x10.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S100000x1 : S_.BroadcastsInDim S100000x1 (![] : Fin 0 → Fin S100000x1.rank)
  reducesTo_S100000x1_S_d0_1 : S100000x1.ReducesTo [0, 1] S_

variable [Facts]

def fn_part2 {F : FTy → Type} [FloatOps F] (main_arg0 : IVec S100000x1 32) (main_v33 : IVec S_ 1) : IVec S_ 1 :=
  let main_c_12 : IVec S_ 32 := constantI S_ 32 0#32
  let main_v34 : IVec S100000x1 32 := broadcastInDim S100000x1 ![] bcast_S_S100000x1 main_c_12
  let main_v35 : IVec S100000x1 1 := cmpi .sge main_arg0 main_v34
  let main_c_13 : IVec S_ 1 := constantI S_ 1 1#1
  let main_v36 : IVec S_ 1 := (fun x v => Host.reduce IntOp.andi x v reducesTo_S100000x1_S_d0_1 h_S_) main_v35 main_c_13
  let main_v37 : IVec S_ 1 := andi main_v33 main_v36
  let main_c_14 : IVec S_ 32 := constantI S_ 32 100#32
  let main_v38 : IVec S100000x1 32 := broadcastInDim S100000x1 ![] bcast_S_S100000x1 main_c_14
  let main_v39 : IVec S100000x1 1 := cmpi .slt main_arg0 main_v38
  let main_c_15 : IVec S_ 1 := constantI S_ 1 1#1
  let main_v40 : IVec S_ 1 := (fun x v => Host.reduce IntOp.andi x v reducesTo_S100000x1_S_d0_1 h_S_) main_v39 main_c_15
  let main_v41 : IVec S_ 1 := andi main_v37 main_v40
  main_v41

def fn_part1 {F : FTy → Type} [FloatOps F] (main_arg0 : IVec S100000x1 32) (main_arg7 : FVec F S128 .f32) (main_arg8 : FVec F S128x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg8
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_v33

def fn {F : FTy → Type} [FloatOps F] (main_arg0 : IVec S100000x1 32) (main_arg1 : IVec S2x640000 32) (main_arg2 : IVec S100000 32) (main_arg3 : FVec F S100x10 .f32) (main_arg4 : FVec F S10x128 .f32) (main_arg5 : FVec F S128 .f32) (main_arg6 : FVec F S128x128 .f32) (main_arg7 : FVec F S128 .f32) (main_arg8 : FVec F S128x1 .f32) (main_arg9 : FVec F S1 .f32) : IVec S_ 1 :=
  let main_v0 : FVec F S100x10 .f32 := Host.absf main_arg3
  let main_cst : FVec F S_ .f32 := constant S_ .f32 0x7F800000#32
  let main_v1 : FVec F S100x10 .f32 := broadcastInDim S100x10 ![] bcast_S_S100x10 main_cst
  let main_v2 : IVec S100x10 1 := cmpf .olt main_v0 main_v1
  let main_c : IVec S_ 1 := constantI S_ 1 1#1
  let main_v3 : IVec S_ 1 := (fun x v => Host.reduce IntOp.andi x v reducesTo_S100x10_S_d0_1 h_S_) main_v2 main_c
  let main_v4 : FVec F S10x128 .f32 := Host.absf main_arg4
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg7 main_arg8 main_arg9 main_v13 main_v16
-- ==== Kernel.lean ====
abbrev S100000x1 : Shape := ⟨2, ![100000, 1]⟩
abbrev S2x640000 : Shape := ⟨2, ![2, 640000]⟩
abbrev S100000 : Shape := ⟨1, ![100000]⟩
abbrev S100x10 : Shape := ⟨2, ![100, 10]⟩
abbrev S10x128 : Shape := ⟨2, ![10, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S740000 : Shape := ⟨1, ![740000]⟩
abbrev S_ : Shape := ⟨0, ![]⟩
abbrev S740000x1 : Shape := ⟨2, ![740000, 1]⟩
abbrev S100x128 : Shape := ⟨2, ![100, 128]⟩
abbrev S100000x128 : Shape := ⟨2, ![100000, 128]⟩
abbrev S10000x1 : Shape := ⟨2, ![10000, 1]⟩
abbrev S10000x128 : Shape := ⟨2, ![10000, 128]⟩
abbrev S740000x128 : Shape := ⟨2, ![740000, 128]⟩
abbrev S1x128 : Shape := ⟨2, ![1, 128]⟩
abbrev S1x1 : Shape := ⟨2, ![1, 1]⟩

abbrev nBuf : Space → Nat
  | .hbm => 98
  | .vmem => 16
  | .smem => 0
  | _ => 0

abbrev bufTy : (tb : Table) → Fin (tcTables nBuf tb) → BufTy
  | .hbm, ⟨0, _⟩ => ⟨S100000x1, .i32⟩
  | .hbm, ⟨1, _⟩ => ⟨S2x640000, .i32⟩
  | .hbm, ⟨2, _⟩ => ⟨S100000, .i32⟩
  | .hbm, ⟨3, _⟩ => ⟨S100x10, .f32⟩
  | .hbm, ⟨4, _⟩ => ⟨S10x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S100000, .i32⟩
  | .hbm, ⟨15, _⟩ => ⟨S740000, .i32⟩
  | .hbm, ⟨16, _⟩ => ⟨S740000, .i32⟩
  | .hbm, ⟨17, _⟩ => ⟨S_, .f32⟩
  | .hbm, ⟨18, _⟩ => ⟨S740000, .f32⟩
  | .hbm, ⟨19, _⟩ => ⟨S_, .f32⟩
  | .hbm, ⟨20, _⟩ => ⟨S100000, .f32⟩
  | .hbm, ⟨21, _⟩ => ⟨S740000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S740000, .i32⟩
  | .hbm, ⟨33, _⟩ => ⟨S740000, .i1⟩
  | .hbm, ⟨34, _⟩ => ⟨S_, .i32⟩
  | .hbm, ⟨35, _⟩ => ⟨S740000, .i32⟩
  | .hbm, ⟨36, _⟩ => ⟨S740000, .i32⟩
  | .hbm, ⟨37, _⟩ => ⟨S740000, .i32⟩
  | .hbm, ⟨38, _⟩ => ⟨S740000x1, .i32⟩
  | .hbm, ⟨39, _⟩ => ⟨S740000, .f32⟩
  | .hbm, ⟨40, _⟩ => ⟨S_, .i32⟩
  | .hbm, ⟨41, _⟩ => ⟨S740000, .i32⟩
  | .hbm, ⟨42, _⟩ => ⟨S740000, .i1⟩
  | .hbm, ⟨43, _⟩ => ⟨S_, .i32⟩
  | .hbm, ⟨44, _⟩ => ⟨S740000, .i32⟩
  | .hbm, ⟨45, _⟩ => ⟨S740000, .i32⟩
  | .hbm, ⟨46, _⟩ => ⟨S740000, .i32⟩
  | .hbm, ⟨47, _⟩ => ⟨S740000x1, .i32⟩
  | .hbm, ⟨48, _⟩ => ⟨S740000, .f32⟩
  | .hbm, ⟨49, _⟩ => ⟨S740000, .f32⟩
  | .hbm, ⟨50, _⟩ => ⟨S740000x1, .f32⟩
  | .hbm, ⟨51, _⟩ => ⟨S100x128, .f32⟩
  | .hbm, ⟨52, _⟩ => ⟨S_, .f32⟩
  | .hbm, ⟨53, _⟩ => ⟨S128x128, .f32⟩
  | .hbm, ⟨54, _⟩ => ⟨S_, .i32⟩
  | .hbm, ⟨55, _⟩ => ⟨S1, .i32⟩
  | .hbm, ⟨56, _⟩ => ⟨S128x128, .f32⟩
  | .hbm, ⟨57, _⟩ => ⟨S100000x128, .f32⟩
  | .hbm, ⟨58, _⟩ => ⟨S_, .i32⟩
  | .hbm, ⟨59, _⟩ => ⟨S740000, .i32⟩
  | .hbm, ⟨60, _⟩ => ⟨S740000, .i1⟩
  | .hbm, ⟨61, _⟩ => ⟨S_, .i32⟩
  | .hbm, ⟨62, _⟩ => ⟨S740000, .i32⟩
  | .hbm, ⟨63, _⟩ => ⟨S740000, .i32⟩
  | .hbm, ⟨64, _⟩ => ⟨S740000, .i32⟩
  | .hbm, ⟨65, _⟩ => ⟨S740000x1, .i32⟩
  | .hbm, ⟨66, _⟩ => ⟨S740000x128, .f32⟩
  | .hbm, ⟨67, _⟩ => ⟨S740000x128, .f32⟩
  | .hbm, ⟨68, _⟩ => ⟨S740000x128, .f32⟩
  | .hbm, ⟨69, _⟩ => ⟨S_, .f32⟩
  | .hbm, ⟨70, _⟩ => ⟨S100000x128, .f32⟩
  | .hbm, ⟨71, _⟩ => ⟨S740000x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S_, .i32⟩
  | .hbm, ⟨78, _⟩ => ⟨S740000, .i32⟩
  | .hbm, ⟨79, _⟩ => ⟨S740000, .i1⟩
  | .hbm, ⟨80, _⟩ => ⟨S_, .i32⟩
  | .hbm, ⟨81, _⟩ => ⟨S740000, .i32⟩
  | .hbm, ⟨82, _⟩ => ⟨S740000, .i32⟩
  | .hbm, ⟨83, _⟩ => ⟨S740000, .i32⟩
  | .hbm, ⟨84, _⟩ => ⟨S740000x1, .i32⟩
  | .hbm, ⟨85, _⟩ => ⟨S740000x128, .f32⟩
  | .hbm, ⟨86, _⟩ => ⟨S740000x128, .f32⟩
  | .hbm, ⟨87, _⟩ => ⟨S740000x128, .f32⟩
  | .hbm, ⟨88, _⟩ => ⟨S_, .f32⟩
  | .hbm, ⟨89, _⟩ => ⟨S100000x128, .f32⟩
  | .hbm, ⟨90, _⟩ => ⟨S740000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S1x1, .f32⟩
  | .hbm, ⟨96, _⟩ => ⟨S100000x1, .f32⟩
  | .hbm, ⟨97, _⟩ => ⟨S100000, .f32⟩
  | .local _ .vmem, ⟨0, _⟩ => ⟨S10000x1, .i32⟩
  | .local _ .vmem, ⟨1, _⟩ => ⟨S10000x1, .i32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x1, .f32⟩
  | .local _ .vmem, ⟨13, _⟩ => ⟨S1x1, .f32⟩
  | .local _ .vmem, ⟨14, _⟩ => ⟨S10000x1, .f32⟩
  | .local _ .vmem, ⟨15, _⟩ => ⟨S10000x1, .f32⟩
  | _, _ => ⟨S100000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S_S128x128 : S_.BroadcastsInDim S128x128 (![] : Fin 0 → Fin S128x128.rank)
  bcast_S_S1 : S_.BroadcastsInDim S1 (![] : Fin 0 → Fin S1.rank)
  iota_S10000x128_d1_w32 : S10000x128.Iotas .tc 32 [1]
  inb_S10000x1_S10000x1_0_0 : ∀ a, (![0, 0] : Fin 2 → Nat) a + S10000x1.size a ≤ S10000x1.size a
  h_S10000x1 : 0 < S10000x1.numel
  broadcasts_S10000x1_S10000x128 : S10000x1.Broadcasts S10000x128
  natLt_1_32 : 1 < 32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x128_S10000x128_0_0 : ∀ a, (![0, 0] : Fin 2 → Nat) a + S10000x128.size a ≤ S10000x128.size a
  h_S10000x128 : 0 < S10000x128.numel
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S100000x1_S100000 : S100000x1.ShapeCasts S100000
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S100x10_S10x128_S100x128_1_0_0_1_n_n_wf : DotDims.WF S100x10 S10x128 S100x128 [1] [0] [0] [1] [] []
  scatter_S128x128_S1_S100x128_01_n_0_0_wf : ScatterDims.WF S128x128 S1 S100x128 [0, 1] [] [0] 0
  dot_S10000x128_S128x128_S10000x128_1_0_0_1_n_n_wf : DotDims.WF S10000x128 S128x128 S10000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .i32 = 32 ∨ (Rect.block (s := S100000x1) S10000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S100x10_S10x128_S100x128_1_0_0_1_n_n : DotDims S100x10 S10x128 S100x128 where
  lhsContracting := [1]
  rhsContracting := [0]
  lhsNonContracting := [0]
  rhsNonContracting := [1]
  lhsBatch := []
  rhsBatch := []
  wf := dot_S100x10_S10x128_S100x128_1_0_0_1_n_n_wf
def scatter_S128x128_S1_S100x128_01_n_0_0 : ScatterDims S128x128 S1 S100x128 where
  updateWindowDims := [0, 1]
  insertedWindowDims := []
  scatterDimsToOperandDims := [0]
  indexVectorDim := 0
  wf := scatter_S128x128_S1_S100x128_01_n_0_0_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x640000 : Shape := ⟨2, ![2, 640000]⟩
abbrev S100000 : Shape := ⟨1, ![100000]⟩
abbrev S100x10 : Shape := ⟨2, ![100, 10]⟩
abbrev S10x128 : Shape := ⟨2, ![10, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S100000x10 : Shape := ⟨2, ![100000, 10]⟩
abbrev S1x640000 : Shape := ⟨2, ![1, 640000]⟩
abbrev S640000 : Shape := ⟨1, ![640000]⟩
abbrev S100000x128 : Shape := ⟨2, ![100000, 128]⟩
abbrev S740000 : Shape := ⟨1, ![740000]⟩
abbrev S740000x1 : Shape := ⟨2, ![740000, 1]⟩
abbrev S740000x128 : Shape := ⟨2, ![740000, 128]⟩
abbrev S1x128 : Shape := ⟨2, ![1, 128]⟩
abbrev S1x1 : Shape := ⟨2, ![1, 1]⟩

abbrev nBuf : Space → Nat
  | .hbm => 155
  | .vmem => 0
  | .smem => 0
  | _ => 0

abbrev hbmTy0_0 (i : Nat) : BufTy := match i % 128 with
  | 0 => ⟨S100000x1, .i32⟩
  | 1 => ⟨S2x640000, .i32⟩
  | 2 => ⟨S100000, .i32⟩
  | 3 => ⟨S100x10, .f32⟩
  | 4 => ⟨S10x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S100000, .i32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x10, .f32⟩
  | 20 => ⟨S1x640000, .i32⟩
  | 21 => ⟨S640000, .i32⟩
  | 22 => ⟨S1x640000, .i32⟩
  | 23 => ⟨S640000, .i32⟩
  | 24 => ⟨S100000x128, .f32⟩
  | 25 => ⟨S100000, .i32⟩
  | 26 => ⟨S740000, .i32⟩
  | 27 => ⟨S740000, .i32⟩
  | 28 => ⟨S_, .f32⟩
  | 29 => ⟨S740000, .f32⟩
  | 30 => ⟨S_, .f32⟩
  | 31 => ⟨S100000, .f32⟩
  | 32 => ⟨S740000x1, .i32⟩
  | 33 => ⟨S100000, .f32⟩
  | 34 => ⟨S_, .f32⟩
  | 35 => ⟨S100000, .f32⟩
  | 36 => ⟨S100000, .i1⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S740000, .i32⟩
  | 44 => ⟨S740000, .i1⟩
  | 45 => ⟨S_, .i32⟩
  | 46 => ⟨S740000, .i32⟩
  | 47 => ⟨S740000, .i32⟩
  | 48 => ⟨S740000, .i32⟩
  | 49 => ⟨S740000x1, .i32⟩
  | 50 => ⟨S740000, .f32⟩
  | 51 => ⟨S_, .i32⟩
  | 52 => ⟨S740000, .i32⟩
  | 53 => ⟨S740000, .i1⟩
  | 54 => ⟨S_, .i32⟩
  | 55 => ⟨S740000, .i32⟩
  | 56 => ⟨S740000, .i32⟩
  | 57 => ⟨S740000, .i32⟩
  | 58 => ⟨S740000x1, .i32⟩
  | 59 => ⟨S740000, .f32⟩
  | 60 => ⟨S740000, .f32⟩
  | 61 => ⟨S_, .i32⟩
  | 62 => ⟨S740000, .i32⟩
  | 63 => ⟨S740000, .i1⟩
  | 64 => ⟨S_, .i32⟩
  | 65 => ⟨S740000, .i32⟩
  | 66 => ⟨S740000, .i32⟩
  | 67 => ⟨S740000, .i32⟩
  | 68 => ⟨S740000x1, .i32⟩
  | 69 => ⟨S740000x128, .f32⟩
  | 70 => ⟨S740000x1, .f32⟩
  | 71 => ⟨S740000x128, .f32⟩
  | 72 => ⟨S740000x128, .f32⟩
  | 73 => ⟨S_, .f32⟩
  | 74 => ⟨S100000x128, .f32⟩
  | 75 => ⟨S740000x1, .i32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S100000, .i32⟩
  | 85 => ⟨S740000, .i32⟩
  | 86 => ⟨S740000, .i32⟩
  | 87 => ⟨S_, .f32⟩
  | 88 => ⟨S740000, .f32⟩
  | 89 => ⟨S_, .f32⟩
  | 90 => ⟨S100000, .f32⟩
  | 91 => ⟨S740000x1, .i32⟩
  | 92 => ⟨S100000, .f32⟩
  | 93 => ⟨S_, .f32⟩
  | 94 => ⟨S100000, .f32⟩
  | 95 => ⟨S100000, .i1⟩
  | 96 => ⟨S100000, .f32⟩
  | 97 => ⟨S_, .f32⟩
  | 98 => ⟨S_, .f32⟩
  | 99 => ⟨S100000, .f32⟩
  | 100 => ⟨S100000, .f32⟩
  | 101 => ⟨S_, .i32⟩
  | 102 => ⟨S740000, .i32⟩
  | 103 => ⟨S740000, .i1⟩
  | 104 => ⟨S_, .i32⟩
  | 105 => ⟨S740000, .i32⟩
  | 106 => ⟨S740000, .i32⟩
  | 107 => ⟨S740000, .i32⟩
  | 108 => ⟨S740000x1, .i32⟩
  | 109 => ⟨S740000, .f32⟩
  | 110 => ⟨S_, .i32⟩
  | 111 => ⟨S740000, .i32⟩
  | 112 => ⟨S740000, .i1⟩
  | 113 => ⟨S_, .i32⟩
  | 114 => ⟨S740000, .i32⟩
  | 115 => ⟨S740000, .i32⟩
  | 116 => ⟨S740000, .i32⟩
  | 117 => ⟨S740000x1, .i32⟩
  | 118 => ⟨S740000, .f32⟩
  | 119 => ⟨S740000, .f32⟩
  | 120 => ⟨S_, .i32⟩
  | 121 => ⟨S740000, .i32⟩
  | 122 => ⟨S740000, .i1⟩
  | 123 => ⟨S_, .i32⟩
  | 124 => ⟨S740000, .i32⟩
  | 125 => ⟨S740000, .i32⟩
  | 126 => ⟨S740000, .i32⟩
  | 127 => ⟨S740000x1, .i32⟩
  | _ => ⟨S100000x1, .i32⟩

abbrev hbmTy0_1 (i : Nat) : BufTy := match i % 128 with
  | 0 => ⟨S740000x128, .f32⟩
  | 1 => ⟨S740000x1, .f32⟩
  | 2 => ⟨S740000x128, .f32⟩
  | 3 => ⟨S740000x128, .f32⟩
  | 4 => ⟨S_, .f32⟩
  | 5 => ⟨S100000x128, .f32⟩
  | 6 => ⟨S740000x1, .i32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .f32⟩
  | 14 => ⟨S100000x1, .f32⟩
  | 15 => ⟨S1x1, .f32⟩
  | 16 => ⟨S100000x1, .f32⟩
  | 17 => ⟨S100000x1, .f32⟩
  | 18 => ⟨S100000, .f32⟩
  | 19 => ⟨S100000, .f32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S100000, .f32⟩
  | _ => ⟨S100000x1, .i32⟩

abbrev hbmTy (i : Nat) : BufTy := match i / 128 with
  | 0 => hbmTy0_0 i
  | 1 => hbmTy0_1 i
  | _ => ⟨S100000x1, .i32⟩

abbrev bufTy : (tb : Table) → Fin (tcTables nBuf tb) → BufTy
  | .hbm, ⟨i, _⟩ => hbmTy i
  | _, _ => ⟨S100000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_call2_v0 : Ref sig .tc := ⟨.hbm, 98, rfl⟩
abbrev main_call2_v1 : Ref sig .tc := ⟨.hbm, 99, rfl⟩
abbrev main_v67 : Ref sig .tc := ⟨.hbm, 100, rfl⟩
abbrev main_c_15 : Ref sig .tc := ⟨.hbm, 101, rfl⟩
abbrev main_v68 : Ref sig .tc := ⟨.hbm, 102, rfl⟩
abbrev main_v69 : Ref sig .tc := ⟨.hbm, 103, rfl⟩
abbrev main_c_16 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_19 : Ref sig .tc := ⟨.hbm, 120, rfl⟩
abbrev main_v83 : Ref sig .tc := ⟨.hbm, 121, rfl⟩
abbrev main_v84 : Ref sig .tc := ⟨.hbm, 122, rfl⟩
abbrev main_c_20 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_21 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_call3_cst : Ref sig .tc := ⟨.hbm, 139, rfl⟩
abbrev main_call3_v0 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_22 : Ref sig .tc := ⟨.hbm, 149, rfl⟩
abbrev main_v107 : Ref sig .tc := ⟨.hbm, 150, rfl⟩
abbrev main_v108 : Ref sig .tc := ⟨.hbm, 151, rfl⟩
abbrev main_cst_23 : Ref sig .tc := ⟨.hbm, 152, rfl⟩
abbrev main_v109 : Ref sig .tc := ⟨.hbm, 153, rfl⟩
abbrev main_v110 : Ref sig .tc := ⟨.hbm, 154, rfl⟩

abbrev nD : Nat := 1
abbrev τ : Topo := Topo.v7x

variable {F : FTy → Type} [FloatOps F]

class Facts₀ : Prop where
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S740000 : S_.BroadcastsInDim S740000 (![] : Fin 0 → Fin S740000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100x10_S100000x1_S100000x10_1_0_n_n_0_1_110_wf : GatherDims.WF S100x10 S100000x1 S100000x10 [1] [0] [] [0] [] 1 ![1, 10]
  dot_S100000x10_S10x128_S100000x128_1_0_0_1_n_n_wf : DotDims.WF S100000x10 S10x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100x10_S100000x1_S100000x10_1_0_n_n_0_1_110 : GatherDims S100x10 S100000x1 S100000x10 where
  offsetDims := [1]
  collapsedSliceDims := [0]
  operandBatchingDims := []
  startIndicesBatchingDims := []
  startIndexMap := [0]
  indexVectorDim := 1
  sliceSizes := ![1, 10]
  wf := gather_S100x10_S100000x1_S100000x10_1_0_n_n_0_1_110_wf
def dot_S100000x10_S10x128_S100000x128_1_0_0_1_n_n : DotDims S100000x10 S10x128 S100000x128 where
  lhsContracting := [1]
  rhsContracting := [0]
  lhsNonContracting := [0]
  rhsNonContracting := [1]
  lhsBatch := []
  rhsBatch := []
  wf := dot_S100000x10_S10x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.HostTerms.lean ====
/-
  The host-side computations of the two programs as named functions of the argument arrays: the edge lists with
  their self loops, the symmetric normalisation, one graph convolution after its linear part, and on the
  reference's side the three linear parts themselves.
-/
import proofs.«419912_j49512382988633_1_alg».proof.Defs
import proofs.«419912_j49512382988633_1_alg».proof.Proof.Gen.KernelIdeal
import proofs.«419912_j49512382988633_1_alg».proof.Proof.Gen.ReferenceIdeal

noncomputable section

namespace Cert.KernelIdeal.HostFn

open Cert.KernelIdeal Idealize.ShloMosaic
open Cert.KernelIdeal.Facts₀ Cert.KernelIdeal.Facts

variable {F : FTy → Type} [FloatOps F]

/-- Source node of every edge, followed by every node once (its self loop). -/
def src2 (e : IVec S2x640000 32) : IVec S740000 32 :=
  concatenate S740000 0 [⟨S640000, shapeCast _ (extractStridedSlice S1x640000 ![0, 0] e slices_S2x640000_S1x640000_0_0) shapeCasts_S1x640000_S640000⟩, ⟨S100000, iotaInDim S100000 32 0⟩] concatenates_S640000_S100000_S740000_d0

/-- Target node of every edge, followed by every node once. -/
def dst2 (e : IVec S2x640000 32) : IVec S740000 32 :=
  concatenate S740000 0 [⟨S640000, shapeCast _ (extractStridedSlice S1x640000 ![1, 0] e slices_S2x640000_S1x640000_1_0) shapeCasts_S1x640000_S640000⟩, ⟨S100000, iotaInDim S100000 32 0⟩] concatenates_S640000_S100000_S740000_d0

/-- A list of node numbers as a column of start indices, a negative number counted from the end. -/
def wrapN (v : IVec S740000 32) : IVec S740000x1 32 :=
  broadcastInDim S740000x1 ![0] bcast_S740000_S740000x1_0
    (select (cmpi .slt v (broadcastInDim S740000 ![] bcast_S_S740000 (constantI S_ 32 0#32)))
      (addi v (broadcastInDim S740000 ![] bcast_S_S740000 (constantI S_ 32 100000#32))) v)

/-- In-degree of every node, self loop counted. -/
def deg (e : IVec S2x640000 32) : FVec F S100000 .f32 :=
  Host.scatterAdd scatter_S100000_S740000x1_S740000_n_0_0_1
    (broadcastInDim S100000 ![] bcast_S_S100000 (constant S_ .f32 0x00000000#32))
    (broadcastInDim S740000x1 ![0] bcast_S740000_S740000x1_0 (dst2 e))
    (broadcastInDim S740000 ![] bcast_S_S740000 (constant S_ .f32 0x3F800000#32))

/-- One over the square root of the degree where it is positive, zero elsewhere. -/
def dinv (e : IVec S2x640000 32) : FVec F S100000 .f32 :=
  select (cmpf (F := F) .ogt (deg e) (broadcastInDim S100000 ![] bcast_S_S100000 (constant S_ .f32 0x00000000#32)))
    (Host.rsqrt (deg e))
    (broadcastInDim S100000 ![] bcast_S_S100000 (id (constant S_ .f32 0x00000000#32)))

/-- The symmetric normalisation of every edge: the two end nodes' factors multiplied. -/
def norm (e : IVec S2x640000 32) : FVec F S740000 .f32 :=
  mulf (Host.gather gather_S100000_S740000x1_S740000_n_0_n_n_0_1_1 (dinv e) (wrapN (src2 e)))
       (Host.gather gather_S100000_S740000x1_S740000_n_0_n_n_0_1_1 (dinv e) (wrapN (dst2 e)))

/-- The same as a column. -/
def normCol (e : IVec S2x640000 32) : FVec F S740000x1 .f32 :=
  broadcastInDim S740000x1 ![0] bcast_S740000_S740000x1_0 (norm e)

/-- One graph convolution after its linear part: gather the source rows, scale by the edge's normalisation,
    add them up at the target rows, add the bias. -/
def aggregate (s d : IVec S740000 32) (nc : FVec F S740000x1 .f32) (xl : FVec F S100000x128 .f32) (b : FVec F S128 .f32) :
    FVec F S100000x128 .f32 :=
  addf (Host.scatterAdd scatter_S100000x128_S740000x1_S740000x128_1_0_0_1
         (broadcastInDim S100000x128 ![] bcast_S_S100000x128 (constant S_ .f32 0x00000000#32))
         (broadcastInDim S740000x1 ![0] bcast_S740000_S740000x1_0 d)
         (mulf (Host.gather gather_S100000x128_S740000x1_S740000x128_1_0_n_n_0_1_1128 xl (wrapN s))
               (broadcastInDim S740000x128 ![0, 1] bcast_S740000x1_S740000x128_0_1 nc)))
       (broadcastInDim S100000x128 ![0, 1] bcast_S1x128_S100000x128_0_1 (broadcastInDim S1x128 ![1] bcast_S128_S1x128_1 b))

/-- The embedding table times the first weight matrix. -/
def ew1 (emb : FVec F S100x10 .f32) (w1 : FVec F S10x128 .f32) : FVec F S100x128 .f32 :=
  Host.dotGeneral dot_S100x10_S10x128_S100x128_1_0_0_1_n_n none emb w1

/-- A 100-row table set into the first rows of a 128-row table of zeros. -/
def padTable (t : FVec F S100x128 .f32) : FVec F S128x128 .f32 :=
  Host.scatter scatter_S128x128_S1_S100x128_01_n_0_0 (fun _ b => b)
    (broadcastInDim S128x128 ![] bcast_S_S128x128 (constant S_ .f32 0x00000000#32))
    (broadcastInDim S1 ![] bcast_S_S1 (constantI S_ 32 0#32)) t

end Cert.KernelIdeal.HostFn

namespace Cert.ReferenceIdeal.HostFn

open Cert.ReferenceIdeal Idealize.ShloMosaic
open Cert.ReferenceIdeal.Facts₀ Cert.ReferenceIdeal.Facts

variable {F : FTy → Type} [FloatOps F]

/-- Source node of every edge, followed by every node once (its self loop). -/
def src2 (e : IVec S2x640000 32) : IVec S740000 32 :=
  concatenate S740000 0 [⟨S640000, shapeCast _ (extractStridedSlice S1x640000 ![0, 0] e slices_S2x640000_S1x640000_0_0) shapeCasts_S1x640000_S640000⟩, ⟨S100000, iotaInDim S100000 32 0⟩] concatenates_S640000_S100000_S740000_d0

/-- Target node of every edge, followed by every node once. -/
def dst2 (e : IVec S2x640000 32) : IVec S740000 32 :=
  concatenate S740000 0 [⟨S640000, shapeCast _ (extractStridedSlice S1x640000 ![1, 0] e slices_S2x640000_S1x640000_1_0) shapeCasts_S1x640000_S640000⟩, ⟨S100000, iotaInDim S100000 32 0⟩] concatenates_S640000_S100000_S740000_d0

/-- A list of node numbers as a column of start indices, a negative number counted from the end. -/
def wrapN (v : IVec S740000 32) : IVec S740000x1 32 :=
  broadcastInDim S740000x1 ![0] bcast_S740000_S740000x1_0
    (select (cmpi .slt v (broadcastInDim S740000 ![] bcast_S_S740000 (constantI S_ 32 0#32)))
      (addi v (broadcastInDim S740000 ![] bcast_S_S740000 (constantI S_ 32 100000#32))) v)

/-- In-degree of every node, self loop counted. -/
def deg (e : IVec S2x640000 32) : FVec F S100000 .f32 :=
  Host.scatterAdd scatter_S100000_S740000x1_S740000_n_0_0_1
    (broadcastInDim S100000 ![] bcast_S_S100000 (constant S_ .f32 0x00000000#32))
    (broadcastInDim S740000x1 ![0] bcast_S740000_S740000x1_0 (dst2 e))
    (broadcastInDim S740000 ![] bcast_S_S740000 (constant S_ .f32 0x3F800000#32))

/-- One over the square root of the degree where it is positive, zero elsewhere. -/
def dinv (e : IVec S2x640000 32) : FVec F S100000 .f32 :=
  select (cmpf (F := F) .ogt (deg e) (broadcastInDim S100000 ![] bcast_S_S100000 (constant S_ .f32 0x00000000#32)))
    (Host.rsqrt (deg e))
    (broadcastInDim S100000 ![] bcast_S_S100000 (id (constant S_ .f32 0x00000000#32)))

/-- The symmetric normalisation of every edge: the two end nodes' factors multiplied. -/
def norm (e : IVec S2x640000 32) : FVec F S740000 .f32 :=
  mulf (Host.gather gather_S100000_S740000x1_S740000_n_0_n_n_0_1_1 (dinv e) (wrapN (src2 e)))
       (Host.gather gather_S100000_S740000x1_S740000_n_0_n_n_0_1_1 (dinv e) (wrapN (dst2 e)))

/-- The same as a column. -/
def normCol (e : IVec S2x640000 32) : FVec F S740000x1 .f32 :=
  broadcastInDim S740000x1 ![0] bcast_S740000_S740000x1_0 (norm e)

/-- One graph convolution after its linear part: gather the source rows, scale by the edge's normalisation,
    add them up at the target rows, add the bias. -/
def aggregate (s d : IVec S740000 32) (nc : FVec F S740000x1 .f32) (xl : FVec F S100000x128 .f32) (b : FVec F S128 .f32) :
    FVec F S100000x128 .f32 :=
  addf (Host.scatterAdd scatter_S100000x128_S740000x1_S740000x128_1_0_0_1
         (broadcastInDim S100000x128 ![] bcast_S_S100000x128 (constant S_ .f32 0x00000000#32))
         (broadcastInDim S740000x1 ![0] bcast_S740000_S740000x1_0 d)
         (mulf (Host.gather gather_S100000x128_S740000x1_S740000x128_1_0_n_n_0_1_1128 xl (wrapN s))
               (broadcastInDim S740000x128 ![0, 1] bcast_S740000x1_S740000x128_0_1 nc)))
       (broadcastInDim S100000x128 ![0, 1] bcast_S1x128_S100000x128_0_1 (broadcastInDim S1x128 ![1] bcast_S128_S1x128_1 b))

/-- The node words as a column of start indices into the embedding table, a negative word counted from the end. -/
def wrapX (x : IVec S100000x1 32) : IVec S100000x1 32 :=
  broadcastInDim S100000x1 ![0] bcast_S100000_S100000x1_0
    (select (cmpi .slt (shapeCast _ x shapeCasts_S100000x1_S100000) (broadcastInDim S100000 ![] bcast_S_S100000 (constantI S_ 32 0#32)))
      (addi (shapeCast _ x shapeCasts_S100000x1_S100000) (broadcastInDim S100000 ![] bcast_S_S100000 (constantI S_ 32 100#32)))
      (shapeCast _ x shapeCasts_S100000x1_S100000))

/-- Each node's embedding row times the first weight matrix. -/
def lin0 (x : IVec S100000x1 32) (emb : FVec F S100x10 .f32) (w1 : FVec F S10x128 .f32) : FVec F S100000x128 .f32 :=
  Host.dotGeneral dot_S100000x10_S10x128_S100000x128_1_0_0_1_n_n none
    (Host.gather gather_S100x10_S100000x1_S100000x10_1_0_n_n_0_1_110 emb (wrapX x)) w1

/-- Clip at zero. -/
def relu (o : FVec F S100000x128 .f32) : FVec F S100000x128 .f32 :=
  maximumf o (broadcastInDim S100000x128 ![] bcast_S_S100000x128 (constant S_ .f32 0x00000000#32))

/-- Clip at zero, then the second weight matrix. -/
def lin1 (o : FVec F S100000x128 .f32) (w2 : FVec F S128x128 .f32) : FVec F S100000x128 .f32 :=
  Host.dotGeneral dot_S100000x128_S128x128_S100000x128_1_0_0_1_n_n none (relu o) w2

/-- Clip at zero, the last weight column, the bias, and the logistic function spelt 1 / (1 + exp (−z)). -/
def headR (o : FVec F S100000x128 .f32) (w3 : FVec F S128x1 .f32) (b3 : FVec F S1 .f32) : FVec F S100000 .f32 :=
  Host.divf (broadcastInDim S100000 ![] bcast_S_S100000 (constant S_ .f32 0x3F800000#32))
    (addf (broadcastInDim S100000 ![] bcast_S_S100000 (constant S_ .f32 0x3F800000#32))
      (Host.exp (Host.negf (shapeCast _
        (addf (Host.dotGeneral dot_S100000x128_S128x1_S100000x1_1_0_0_1_n_n none (relu o) w3)
          (broadcastInDim S100000x1 ![0, 1] bcast_S1x1_S100000x1_0_1 (broadcastInDim S1x1 ![1] bcast_S1_S1x1_1 b3)))
        shapeCasts_S100000x1_S100000))))

end Cert.ReferenceIdeal.HostFn

end
-- ==== Proof.KStretch.lean ====
/-
  The kernel program's stretches of host operations, read at the buffers later steps use: from ANY buffer contents
  at a stretch's entry, each result is the named function (HostTerms) of the entry contents it depends on, and a
  buffer the stretch does not write keeps its contents.
-/
import proofs.«419912_j49512382988633_1_alg».proof.Proof.Gen.KernelIdeal.Launch
import proofs.«419912_j49512382988633_1_alg».proof.Proof.HostTerms
import Idealize.ShloMosaic.Lib.StableHlo.Run

set_option maxRecDepth 16384

noncomputable section

namespace Cert.KernelIdeal.Stretch

open Idealize.ShloMosaic Idealize.ShloMosaic.TcCoe Idealize.SL.Sem Idealize.ShloMosaic.StableHlo
open Cert.KernelIdeal Cert.KernelIdeal.Gen Cert.KernelIdeal.HostFn

variable {F : FTy → Type} [FloatOps F]
variable (X : Valuation τ sig (Elt F))

/-! ## Before the first region: the three stretches from the launch contents -/

set_option maxHeartbeats 8000000 in
theorem pre_src : after (hostOps0_2 (F := F)) (after (hostOps0_1 (F := F)) (after (hostOps0 (F := F)) X)) (Proc.devRef .tc main_v5) = src2 (X (Proc.devRef .tc main_arg1)) := by
  dsimp only [hostOps0, hostOps0_1, hostOps0_2]; after_results_simp <;> rfl

set_option maxHeartbeats 8000000 in
theorem pre_dst : after (hostOps0_2 (F := F)) (after (hostOps0_1 (F := F)) (after (hostOps0 (F := F)) X)) (Proc.devRef .tc main_v6) = dst2 (X (Proc.devRef .tc main_arg1)) := by
  dsimp only [hostOps0, hostOps0_1, hostOps0_2]; after_results_simp <;> rfl

set_option maxHeartbeats 16000000 in
theorem pre_norm : after (hostOps0_2 (F := F)) (after (hostOps0_1 (F := F)) (after (hostOps0 (F := F)) X)) (Proc.devRef .tc main_v30) = normCol (F := F) (X (Proc.devRef .tc main_arg1)) := by
  dsimp only [hostOps0, hostOps0_1, hostOps0_2]; after_results_simp <;> rfl

set_option maxHeartbeats 8000000 in
theorem pre_table : after (hostOps0_2 (F := F)) (after (hostOps0_1 (F := F)) (after (hostOps0 (F := F)) X)) (Proc.devRef .tc main_v34)
    = padTable (ew1 (X (Proc.devRef .tc main_arg3)) (X (Proc.devRef .tc main_arg4))) := by
  dsimp only [hostOps0, hostOps0_1, hostOps0_2]; after_results_simp <;> rfl

set_option maxHeartbeats 4000000 in
theorem pre_arg0 : after (hostOps0_2 (F := F)) (after (hostOps0_1 (F := F)) (after (hostOps0 (F := F)) X)) (Proc.devRef .tc main_arg0) = X (Proc.devRef .tc main_arg0) := by
  dsimp only [hostOps0, hostOps0_1, hostOps0_2]; after_results_simp

set_option maxHeartbeats 4000000 in
theorem pre_arg5 : after (hostOps0_2 (F := F)) (after (hostOps0_1 (F := F)) (after (hostOps0 (F := F)) X)) (Proc.devRef .tc main_arg5) = X (Proc.devRef .tc main_arg5) := by
  dsimp only [hostOps0, hostOps0_1, hostOps0_2]; after_results_simp

set_option maxHeartbeats 4000000 in
theorem pre_arg6 : after (hostOps0_2 (F := F)) (after (hostOps0_1 (F := F)) (after (hostOps0 (F := F)) X)) (Proc.devRef .tc main_arg6) = X (Proc.devRef .tc main_arg6) := by
  dsimp only [hostOps0, hostOps0_1, hostOps0_2]; after_results_simp

set_option maxHeartbeats 4000000 in
theorem pre_arg7 : after (hostOps0_2 (F := F)) (after (hostOps0_1 (F := F)) (after (hostOps0 (F := F)) X)) (Proc.devRef .tc main_arg7) = X (Proc.devRef .tc main_arg7) := by
  dsimp only [hostOps0, hostOps0_1, hostOps0_2]; after_results_simp

set_option maxHeartbeats 4000000 in
theorem pre_arg8 : after (hostOps0_2 (F := F)) (after (hostOps0_1 (F := F)) (after (hostOps0 (F := F)) X)) (Proc.devRef .tc main_arg8) = X (Proc.devRef .tc main_arg8) := by
  dsimp only [hostOps0, hostOps0_1, hostOps0_2]; after_results_simp

set_option maxHeartbeats 4000000 in
theorem pre_arg9 : after (hostOps0_2 (F := F)) (after (hostOps0_1 (F := F)) (after (hostOps0 (F := F)) X)) (Proc.devRef .tc main_arg9) = X (Proc.devRef .tc main_arg9) := by
  dsimp only [hostOps0, hostOps0_1, hostOps0_2]; after_results_simp

/-! ## Between the first and the second region -/

set_option maxHeartbeats 8000000 in
theorem mid1_out : after (hostOps1 (F := F)) X (Proc.devRef .tc main_v50)
    = aggregate (X (Proc.devRef .tc main_v5)) (X (Proc.devRef .tc main_v6)) (X (Proc.devRef .tc main_v30))
        (X (Proc.devRef .tc main_v35)) (X (Proc.devRef .tc main_arg5)) := by
  dsimp only [hostOps1]; after_results_simp <;> rfl

set_option maxHeartbeats 4000000 in
theorem mid1_v5 : after (hostOps1 (F := F)) X (Proc.devRef .tc main_v5) = X (Proc.devRef .tc main_v5) := by
  dsimp only [hostOps1]; after_results_simp

set_option maxHeartbeats 4000000 in
theorem mid1_v6 : after (hostOps1 (F := F)) X (Proc.devRef .tc main_v6) = X (Proc.devRef .tc main_v6) := by
  dsimp only [hostOps1]; after_results_simp

set_option maxHeartbeats 4000000 in
theorem mid1_v30 : after (hostOps1 (F := F)) X (Proc.devRef .tc main_v30) = X (Proc.devRef .tc main_v30) := by
  dsimp only [hostOps1]; after_results_simp

set_option maxHeartbeats 4000000 in
theorem mid1_arg6 : after (hostOps1 (F := F)) X (Proc.devRef .tc main_arg6) = X (Proc.devRef .tc main_arg6) := by
  dsimp only [hostOps1]; after_results_simp

set_option maxHeartbeats 4000000 in
theorem mid1_arg7 : after (hostOps1 (F := F)) X (Proc.devRef .tc main_arg7) = X (Proc.devRef .tc main_arg7) := by
  dsimp only [hostOps1]; after_results_simp

set_option maxHeartbeats 4000000 in
theorem mid1_arg8 : after (hostOps1 (F := F)) X (Proc.devRef .tc main_arg8) = X (Proc.devRef .tc main_arg8) := by
  dsimp only [hostOps1]; after_results_simp

set_option maxHeartbeats 4000000 in
theorem mid1_arg9 : after (hostOps1 (F := F)) X (Proc.devRef .tc main_arg9) = X (Proc.devRef .tc main_arg9) := by
  dsimp only [hostOps1]; after_results_simp

/-! ## Between the second and the third region -/

set_option maxHeartbeats 8000000 in
theorem mid2_out : after (hostOps2 (F := F)) X (Proc.devRef .tc main_v66)
    = aggregate (X (Proc.devRef .tc main_v5)) (X (Proc.devRef .tc main_v6)) (X (Proc.devRef .tc main_v30))
        (X (Proc.devRef .tc main_v51)) (X (Proc.devRef .tc main_arg7)) := by
  dsimp only [hostOps2]; after_results_simp <;> rfl

set_option maxHeartbeats 8000000 in
theorem mid2_bias : after (hostOps2 (F := F)) X (Proc.devRef .tc main_v67)
    = shapeCast S1x1 (X (Proc.devRef .tc main_arg9)) Facts₀.shapeCasts_S1_S1x1 := by
  dsimp only [hostOps2]; after_results_simp <;> rfl

set_option maxHeartbeats 4000000 in
theorem mid2_arg8 : after (hostOps2 (F := F)) X (Proc.devRef .tc main_arg8) = X (Proc.devRef .tc main_arg8) := by
  dsimp only [hostOps2]; after_results_simp

/-! ## After the third region -/

theorem post_out : after (hostOps3 (F := F)) X (Proc.devRef .tc main_v69)
    = shapeCast S100000 (X (Proc.devRef .tc main_v68)) Facts₀.shapeCasts_S100000x1_S100000 := by
  dsimp only [hostOps3]; after_results_simp <;> rfl

end Cert.KernelIdeal.Stretch

end
-- ==== Proof.Spec.lean ====
/-
  The functions both programs compute, entry by entry, over the extended reals.

  A node's first-layer features are the row of a 128-row table that the node's word selects; the two later
  products first clip their left operand at zero (relu) and then contract its 128 columns against a weight
  matrix; the head adds a bias to such a product of one output column and applies the logistic function.
-/
import Idealize.ShloMosaic.PureOps.Ideal
import Idealize.ShloMosaic.Lib.ValueIdx

noncomputable section

open scoped BigOperators

namespace Cert.Gcn

open Idealize.ShloMosaic Idealize.ShloMosaic.ValueIdx

abbrev SN1 : Shape := ⟨2, ![100000, 1]⟩
abbrev SNH : Shape := ⟨2, ![100000, 128]⟩
abbrev SHH : Shape := ⟨2, ![128, 128]⟩
abbrev SH1 : Shape := ⟨2, ![128, 1]⟩
abbrev S11 : Shape := ⟨2, ![1, 1]⟩

/-- The table row a 32-bit word selects: a word below 128 selects the row of its own number. -/
def rowOf (w : BitVec 32) : Fin 128 := ⟨w.toNat % 128, Nat.mod_lt _ (by decide)⟩

theorem rowOf_val (w : BitVec 32) (h : w.toNat < 128) : (rowOf w).val = w.toNat := Nat.mod_eq_of_lt h

/-- Each node's row of a 128-row table: entry (p, q) is the table's entry (row of x[p], q). -/
def pick (x : IVec SN1 32) (tbl : FVec Ideal SHH .f32) : FVec Ideal SNH .f32 :=
  fun i => tbl (ix2 (rowOf (x (ix2 (i 0) (0 : Fin 1)))) (i 1))

/-- Clip at zero, then contract the 128 columns against a 128 × 128 matrix. -/
def reluDot (o : FVec Ideal SNH .f32) (w : FVec Ideal SHH .f32) : FVec Ideal SNH .f32 :=
  fun i => ∑ k : Fin 128, max (o (ix2 (i 0) k)) (0 : EReal) * w (ix2 k (i 1))

/-- Clip at zero, contract against a 128 × 1 column, add the bias, apply the logistic function. -/
def head (o : FVec Ideal SNH .f32) (w : FVec Ideal SH1 .f32) (b : FVec Ideal S11 .f32) : FVec Ideal SN1 .f32 :=
  fun i => Ideal.logistic ((∑ k : Fin 128, max (o (ix2 (i 0) k)) (0 : EReal) * w (ix2 k (0 : Fin 1))) + b (ix2 (0 : Fin 1) (0 : Fin 1)))

theorem pick_apply (x : IVec SN1 32) (tbl : FVec Ideal SHH .f32) (p : Fin 100000) (q : Fin 128) :
    pick x tbl (ix2 p q) = tbl (ix2 (rowOf (x (ix2 p (0 : Fin 1)))) q) := rfl

theorem reluDot_apply (o : FVec Ideal SNH .f32) (w : FVec Ideal SHH .f32) (p : Fin 100000) (q : Fin 128) :
    reluDot o w (ix2 p q) = ∑ k : Fin 128, max (o (ix2 p k)) (0 : EReal) * w (ix2 k q) := rfl

theorem head_apply (o : FVec Ideal SNH .f32) (w : FVec Ideal SH1 .f32) (b : FVec Ideal S11 .f32) (p : Fin 100000) (u : Fin 1) :
    head o w b (ix2 p u) = Ideal.logistic ((∑ k : Fin 128, max (o (ix2 p k)) (0 : EReal) * w (ix2 k (0 : Fin 1))) + b (ix2 (0 : Fin 1) (0 : Fin 1))) := rfl

end Cert.Gcn

end
-- ==== Proof.RegionArrays.lean ====
/-
  The arrays the three kernel regions read, named under their literal types: a region's proof data hold them as
  buffer contents at the region's entry, whatever those are.
-/
import proofs.«419912_j49512382988633_1_alg».proof.Proof.Gen.KernelIdeal.Frame
import proofs.«419912_j49512382988633_1_alg».proof.Proof.Spec

noncomputable section
namespace Cert.KernelIdeal.RegionValue

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The node words (region 0's first operand). -/
abbrev xArr (c : Dev nD) : IVec S100000x1 32 := V c main_arg0
/-- The 128-row table (region 0's second operand). -/
abbrev tblArr (c : Dev nD) : FVec Ideal S128x128 .f32 := V c main_v34
/-- The first layer's output (region 1's first operand). -/
abbrev o1Arr (c : Dev nD) : FVec Ideal S100000x128 .f32 := V c main_v50
/-- The second weight matrix (region 1's second operand). -/
abbrev w2Arr (c : Dev nD) : FVec Ideal S128x128 .f32 := V c main_arg6
/-- The second layer's output (region 2's first operand). -/
abbrev o2Arr (c : Dev nD) : FVec Ideal S100000x128 .f32 := V c main_v66
/-- The head's weight column (region 2's second operand). -/
abbrev w3Arr (c : Dev nD) : FVec Ideal S128x1 .f32 := V c main_arg8
/-- The head's bias as a 1 × 1 array (region 2's third operand). -/
abbrev b3Arr (c : Dev nD) : FVec Ideal S1x1 .f32 := V c main_v67

end Cert.KernelIdeal.RegionValue
end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibOneHot.lean ====
/-
  Picking one entry with a one-hot row, and the layout steps around it.

  A sum over a finite index weighted by the indicator of one index `a0` is the term at `a0`: on the extended reals
  `0 · x = 0` and `1 · x = x` for every `x`, infinite ones included, so nothing need be finite. Hence a matrix product
  of a one-hot row with a table is the table's row the one sits on, and a masked sum along the last axis is the entry
  on the mask's lane. With them the casts and broadcasts such a gather is written with — an `[a, b]` array given a
  unit middle axis, that axis spread over `c` copies — and the sums along the last axis of a rank-2 and a rank-3
  array, each read at an entry.
-/
import Idealize.ShloMosaic.PureOps.Ideal.Laws
import Idealize.ShloMosaic.Lib.ValueIdx
import Idealize.ShloMosaic.Lib.ValueLayout
import Idealize.ShloMosaic.Lib.Pipeline.Value
import proofs.«419912_j49512382988633_1_alg».proof.Proof.LibPlainDot

noncomputable section

open scoped BigOperators

namespace Cert.LibOneHot

open Idealize.ShloMosaic Idealize.ShloMosaic.ValueIdx Cert

/-- A sum weighted on the left by the indicator of one index is the term at that index. -/
theorem sum_onehot_mul {n : Nat} (f : Fin n → EReal) (a0 : Fin n) :
    ∑ a : Fin n, (if a = a0 then (1 : EReal) else 0) * f a = f a0 := by
  rw [Finset.sum_eq_single a0]
  · rw [if_pos rfl, one_mul]
  · intro a _ hne
    rw [if_neg hne, zero_mul]
  · intro h
    exact absurd (Finset.mem_univ a0) h

/-- A sum weighted on the right by the indicator of one index is the term at that index. -/
theorem sum_mul_onehot {n : Nat} (f : Fin n → EReal) (b0 : Fin n) :
    ∑ b : Fin n, f b * (if b = b0 then (1 : EReal) else 0) = f b0 := by
  rw [Finset.sum_eq_single b0]
  · rw [if_pos rfl, mul_one]
  · intro b _ hne
    rw [if_neg hne, mul_zero]
  · intro h
    exact absurd (Finset.mem_univ b0) h

/-- A one-hot row times a table, into the zero accumulator, is the table's row the one sits on. -/
theorem onehot_matmul_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![M, K]⟩ φ₁) (t : FVec Ideal ⟨2, ![K, N]⟩ φ₂) (r : Fin M) (a0 : Fin K)
    (hA : ∀ a : Fin K, A (ix2 r a) = if a = a0 then (1 : EReal) else 0) (j : Fin N) :
    FloatOps.matmul d prec A t (constant (F := Ideal) ⟨2, ![M, N]⟩ .f32 0x00000000#32) (ix2 r j) = t (ix2 a0 j) := by
  refine (LibPlainDot.matmul_zero_apply d hlc hrc hln hrn hlb hrb prec A t r j).trans ?_
  refine (Finset.sum_congr rfl fun a _ => congrArg (· * t (ix2 a j)) (hA a)).trans ?_
  exact sum_onehot_mul (fun a => t (ix2 a j)) a0

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, b]` array spread over `c` copies of its middle axis reads, at `(i, k, j)`, the operand at `(i, 0, j)`. -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- The sum over the last axis of a rank-3 array, at `(i, k)`: the sum over `j` of the entries `(i, k, j)`. -/
theorem sumLast3_apply {a c b : ℕ} {φ : FTy} (src : FVec Ideal ⟨3, ![a, c, b]⟩ φ) (acc : BitVec φ.bits)
    (h : (⟨3, ![a, c, b]⟩ : Shape).Reduces [2] ⟨2, ![a, c]⟩) (hφ : FKind.Formats φ)
    (hacc : acc = FKind.add.neutral φ hφ) (i : Fin a) (k : Fin c) :
    multiReduction (F := Ideal) .add [2] ⟨2, ![a, c]⟩ src acc h hφ hacc (ix2 i k) = ∑ j : Fin b, src (ix3 i k j) := by
  refine (Ideal.multiReduction_add_single src acc h hφ hacc (ix2 i k)).trans ?_
  refine Finset.sum_congr rfl fun j _ => congrArg src ?_
  funext ax
  refine Fin.ext ?_
  match ax with
  | ⟨0, _⟩ => rfl
  | ⟨1, _⟩ => rfl
  | ⟨2, _⟩ => rfl

/-- The sum over the last axis of a matrix, at row `i`: the sum over `j` of the entries `(i, j)`. -/
theorem sumLast2_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (i : Fin a) :
    multiReduction (F := Ideal) .add [1] ⟨1, ![a]⟩ src acc h hφ hacc (ix1 i) = ∑ j : Fin b, src (ix2 i j) := by
  refine (Ideal.multiReduction_add_single src acc h hφ hacc (ix1 i)).trans ?_
  refine Finset.sum_congr rfl fun j _ => congrArg src ?_
  funext ax
  refine Fin.ext ?_
  match ax with
  | ⟨0, _⟩ => rfl
  | ⟨1, _⟩ => rfl

end Cert.LibOneHot

end
-- ==== Proof.LibColumns.lean ====
/-
  Columns of a matrix, and three arrays of rows laid side by side, read at an entry.

  A vector of length a set up as an a × 1 column has the vector's entry i at (i, 0); read back as a vector it gives the
  column's entry. A column spread over the b entries of each row has, at (p, c), the column's entry p. Joining an
  n × w₁, an n × w₂ and an n × w₃ array along the column axis gives an array whose entry (r, j) is the first array's
  entry (r, j) for j < w₁, the second's entry (r, j − w₁) for w₁ ≤ j < w₁ + w₂, and the third's entry
  (r, j − w₁ − w₂) from there on.
-/
import Idealize.ShloMosaic.Lib.Pipeline.Value
import Idealize.ShloMosaic.Lib.ValueIdx

noncomputable section

namespace Cert.LibColumns

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE JOIN OF THREE AT `(r, j)`: the piece whose span of columns holds `j`, at `j` less the widths before it. -/
theorem concat3_apply {n w₁ w₂ w₃ w : ℕ} (x : (⟨2, ![n, w₁]⟩ : Shape).Idx → α) (y : (⟨2, ![n, w₂]⟩ : Shape).Idx → α)
    (z : (⟨2, ![n, w₃]⟩ : Shape).Idx → α)
    (h : Shape.Concatenates [(⟨2, ![n, w₁]⟩ : Shape), ⟨2, ![n, w₂]⟩, ⟨2, ![n, w₃]⟩] ⟨2, ![n, w]⟩ 1)
    (hw : w = w₁ + w₂ + w₃) (r : Fin n) (j : Fin w) :
    concatenate ⟨2, ![n, w]⟩ 1 [⟨⟨2, ![n, w₁]⟩, x⟩, ⟨⟨2, ![n, w₂]⟩, y⟩, ⟨⟨2, ![n, w₃]⟩, z⟩] h (ix2 r j)
      = if h1 : j.val < w₁ then x (ix2 r ⟨j.val, h1⟩)
        else if h2 : j.val < w₁ + w₂ then y (ix2 r ⟨j.val - w₁, by omega⟩)
        else z (ix2 r ⟨j.val - w₁ - w₂, by have := j.isLt; omega⟩) := by
  split
  · next h1 =>
    exact concatenate_apply_piece 1 [⟨⟨2, ![n, w₁]⟩, x⟩, ⟨⟨2, ![n, w₂]⟩, y⟩, ⟨⟨2, ![n, w₃]⟩, z⟩] h (ix2 r j) 0 (by simp) _ x rfl rfl 0 rfl (ix2 r ⟨j.val, h1⟩)
      (fun b hb => match b, hb with
        | ⟨0, _⟩, _ => rfl
        | ⟨1, _⟩, hb => absurd rfl hb) (Nat.zero_add _)
  · next h1 =>
    split
    · next h2 =>
      exact concatenate_apply_piece 1 [⟨⟨2, ![n, w₁]⟩, x⟩, ⟨⟨2, ![n, w₂]⟩, y⟩, ⟨⟨2, ![n, w₃]⟩, z⟩] h (ix2 r j) 1 (by simp) _ y rfl rfl w₁ (by simp) (ix2 r ⟨j.val - w₁, by omega⟩)
        (fun b hb => match b, hb with
          | ⟨0, _⟩, _ => rfl
          | ⟨1, _⟩, hb => absurd rfl hb) (by show w₁ + (j.val - w₁) = j.val; omega)
    · next h2 =>
      exact concatenate_apply_piece 1 [⟨⟨2, ![n, w₁]⟩, x⟩, ⟨⟨2, ![n, w₂]⟩, y⟩, ⟨⟨2, ![n, w₃]⟩, z⟩] h (ix2 r j) 2 (by simp) _ z rfl rfl (w₁ + w₂) (by simp)
        (ix2 r ⟨j.val - w₁ - w₂, by have := j.isLt; omega⟩)
        (fun b hb => match b, hb with
          | ⟨0, _⟩, _ => rfl
          | ⟨1, _⟩, hb => absurd rfl hb) (by show w₁ + w₂ + (j.val - w₁ - w₂) = j.val; omega)

end Cert.LibColumns

end
-- ==== Proof.Region0Pay.lean ====
/-
  Region 0's block payload, read at an entry.

  The left operand of the product is built from the column of node words: its entry (p, a) is the number 1 when the
  word of row p, below 128, is the number a, and 0 otherwise. So each of its rows has a single 1, on the column the
  word names, and the product with the table into the zero accumulator is that row of the table. The format
  changes and the cast of the table to its own shape do nothing at the extended reals.
-/
import proofs.«419912_j49512382988633_1_alg».proof.Proof.RegionArrays
import proofs.«419912_j49512382988633_1_alg».proof.Proof.LibOneHot
import proofs.«419912_j49512382988633_1_alg».proof.Proof.LibColumns

noncomputable section
namespace Cert.KernelIdeal.RegionValue

open Idealize.ShloMosaic Idealize.ShloMosaic.TcCoe Idealize.SL.Sem Idealize.ShloMosaic.ValueIdx
open Cert.KernelIdeal Cert.KernelIdeal.Gen

/-- A number below 128 written as a 32-bit word equals a word below 128 exactly when it is the row that word selects. -/
theorem ofNat_eq_iff_rowOf (w : BitVec 32) (hw : w.toNat < 128) (a : Fin 128) :
    BitVec.ofNat 32 a.val = w ↔ a = Cert.Gcn.rowOf w := by
  have ha : a.val < 128 := a.isLt
  constructor
  · intro h
    apply Fin.ext
    rw [Cert.Gcn.rowOf_val w hw, ← h, BitVec.toNat_ofNat]
    omega
  · intro h
    apply BitVec.eq_of_toNat_eq
    rw [BitVec.toNat_ofNat, h, Cert.Gcn.rowOf_val w hw]
    omega

/-- The comparison of the lane number a with a word below 128, widened to 32 bits and read as a signed integer,
    is the indicator of "a is the row the word selects". -/
theorem onehot_word (w : BitVec 32) (hw : w.toNat < 128) (a : Fin 128) :
    (((((IntOp.cmpi .eq (BitVec.ofNat 32 a.val) w).setWidth 32).toInt : ℤ) : ℝ) : EReal)
      = if a = Cert.Gcn.rowOf w then (1 : EReal) else 0 := by
  by_cases h : a = Cert.Gcn.rowOf w
  · rw [if_pos h, IntOp.cmpi_eq.mpr ((ofNat_eq_iff_rowOf w hw a).mpr h)]
    rw [show ((1#1 : BitVec 1).setWidth 32).toInt = 1 from by decide]
    rw [Int.cast_one, EReal.coe_one]
  · rw [if_neg h, eq_zero_of_ne_one (fun hc => h ((ofNat_eq_iff_rowOf w hw a).mp (IntOp.cmpi_eq.mp hc)))]
    rw [show ((0#1 : BitVec 1).setWidth 32).toInt = 0 from by decide]
    rw [Int.cast_zero, EReal.coe_zero]

/-- Entry (p, q) of the block the body stores: the table's entry (row of the word of row p, q). -/
theorem pay_apply (v1 : Vec Ideal S10000x1 .i32) (v7 : Vec Ideal S128x128 .f32) (p : Fin 10000) (q : Fin 128)
    (h : (v1 (ix2 p (0 : Fin 1))).toNat < 128) :
    k0_pay1 (F := Ideal) v1 v7 (ix2 p q) = v7 (ix2 (Cert.Gcn.rowOf (v1 (ix2 p (0 : Fin 1)))) q) := by
  unfold k0_pay1
  refine (Cert.LibOneHot.onehot_matmul_apply dot_S10000x128_S128x128_S10000x128_1_0_0_1_n_n rfl rfl rfl rfl rfl rfl none _ _ p
    (Cert.Gcn.rowOf (v1 (ix2 p (0 : Fin 1)))) ?_ q).trans ?_
  · intro a
    show (((((IntOp.cmpi .eq (iota .tc S10000x128 32 [1] iota_S10000x128_d1_w32 (ix2 p a))
      (broadcastTo S10000x128 v1 broadcasts_S10000x1_S10000x128 (ix2 p a))).setWidth 32).toInt : ℤ) : ℝ) : EReal) = _
    rw [iota_single_apply, Cert.LibColumns.broadcastTo_a1_ab_apply]
    exact onehot_word (v1 (ix2 p (0 : Fin 1))) h a
  · show shapeCast S128x128 v7 shapeCasts_S128x128_S128x128 (ix2 _ q) = _
    rw [shapeCast_self]

end Cert.KernelIdeal.RegionValue
end
-- ==== Proof.Region0.lean ====
/-
  Region 0's output array: each node's row of the table.

  The region runs over ten points; point t stages rows 10000 t to 10000 t + 9999 of the column of node words and
  the whole table, and writes back the same rows of the output. By the payload's entry formula the block written
  back at point t is the block, at those rows, of one function of the whole arrays: the array whose row r is the
  table row that node r's word selects. Row r lies in the block of point r / 10000, so the ten blocks cover the
  array and it ends holding that function.
-/
import proofs.«419912_j49512382988633_1_alg».proof.Proof.Region0Pay

noncomputable section
namespace Cert.KernelIdeal.RegionValue

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The zero offsets of a whole-buffer access, as the constant function. -/
theorem zeroOffsets : (![0, 0] : Fin 2 → Nat) = fun _ => 0 := funext fun a => by fin_cases a <;> rfl

/-- The block indices at a point: the words' and the output's row block is the point's number, every column block
    is 0, and the table's block is (0, 0). -/
theorem blockIndices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The block of node words staged at point t. -/
abbrev wordsBlk (c : Dev nD) (t : Fin cfg0.N) : Vec Ideal S10000x1 .i32 := iblk0 (F := Ideal) V c 0 t
/-- The table as staged at point t. -/
abbrev tableBlk (c : Dev nD) (t : Fin cfg0.N) : Vec Ideal S128x128 .f32 := iblk0 (F := Ideal) V c 1 t

/-- Row p of the staged words is the array's row (output row block) * 10000 + p. -/
theorem wordsBlk_apply (c : Dev nD) (t : Fin cfg0.N) (p : Fin 10000) (r : Fin 100000)
    (hr : r.val = win0_2.index t (0 : Fin 2) * 10000 + p.val) :
    wordsBlk V c t (ix2 p (0 : Fin 1)) = xArr V c (ix2 r (0 : Fin 1)) := by
  show V c main_arg0 (((cfg0.win 0).blk t).view.emb (ix2 p (0 : Fin 1))) = V c main_arg0 (ix2 r (0 : Fin 1))
  refine congrArg _ (funext fun a => Fin.ext ?_)
  obtain ⟨e0, e1, -, -, -, -⟩ := blockIndices t
  match a with
  | ⟨0, _⟩ => show win0_0.index t (0 : Fin 2) * 10000 + 1 * p.val = r.val; omega
  | ⟨1, _⟩ => show win0_0.index t (1 : Fin 2) * 1 + 1 * 0 = 0; omega

/-- The staged table is the table: entry (a, q) is the array's entry (a, column block * 128 + q). -/
theorem tableBlk_apply (c : Dev nD) (t : Fin cfg0.N) (a : Fin 128) (q : Fin 128) (s : Fin 128)
    (hs : s.val = win0_2.index t (1 : Fin 2) * 128 + q.val) :
    tableBlk V c t (ix2 a q) = tblArr V c (ix2 a s) := by
  show V c main_v34 (((cfg0.win 1).blk t).view.emb (ix2 a q)) = V c main_v34 (ix2 a s)
  refine congrArg _ (funext fun b => Fin.ext ?_)
  obtain ⟨-, -, e2, e3, -, e5⟩ := blockIndices t
  match b with
  | ⟨0, _⟩ => show win0_1.index t (0 : Fin 2) * 128 + 1 * a.val = a.val; omega
  | ⟨1, _⟩ => show win0_1.index t (1 : Fin 2) * 128 + 1 * q.val = s.val; omega

/-- What point t writes back is block t of the array of selected table rows. -/
theorem flushed_eq_pick (c : Dev nD) (hx : ∀ p : Fin 100000, (xArr V c (ix2 p (0 : Fin 1))).toNat < 128) (t : Fin cfg0.N) :
    (dat0 (F := Ideal) V c).flushed 2 t
      = ((cfg0.win 2).blk t).view.read (Elt Ideal) (Cert.Gcn.pick (xArr V c) (tblArr V c)) := by
  show (cfg0.win 2).cut (grid0.coords t) ((dat0 (F := Ideal) V c).after 2 t) = _
  rw [after0_2]
  unfold out0_2
  rw [View.canon_unit_zero zeroOffsets]
  simp only [View.ld_unit_zero (S := S10000x1) zeroOffsets, View.ld_unit_zero (S := S128x128) zeroOffsets]
  funext j
  obtain ⟨p, q, rfl⟩ : ∃ (p : Fin 10000) (q : Fin 128), j = ix2 p q := ⟨j 0, j 1, eq_ix2 j⟩
  -- the array index of entry (p, q) of the block
  have hi : ∃ i : S100000x128.Idx, i = ((cfg0.win 2).blk t).view.emb (ix2 p q)
      ∧ (i 0).val = win0_2.index t (0 : Fin 2) * 10000 + 1 * p.val
      ∧ (i 1).val = win0_2.index t (1 : Fin 2) * 128 + 1 * q.val := ⟨_, rfl, rfl, rfl⟩
  obtain ⟨i, hi, hi0, hi1⟩ := hi
  show k0_pay1 (F := Ideal) (wordsBlk V c t) (tableBlk V c t) (ix2 p q)
    = Cert.Gcn.pick (xArr V c) (tblArr V c) (((cfg0.win 2).blk t).view.emb (ix2 p q))
  rw [← hi]
  have ew : wordsBlk V c t (ix2 p (0 : Fin 1)) = xArr V c (ix2 (i 0) (0 : Fin 1)) :=
    wordsBlk_apply V c t p (i 0) (by omega)
  refine (pay_apply (wordsBlk V c t) (tableBlk V c t) p q (by rw [ew]; exact hx (i 0))).trans ?_
  rw [ew]
  exact tableBlk_apply V c t _ q (i 1) (by omega)

/-- An index of the output array is in point t's block iff each coordinate is in the block's range on its axis. -/
theorem mem_outBlk (t : Fin cfg0.N) (i : S100000x128.Idx) :
    i ∈ ((cfg0.win 2).blk t).view.set
      ↔ ∀ a : Fin 2, win0_2.index t a * S10000x128.size a ≤ (i a).val
          ∧ (i a).val < win0_2.index t a * S10000x128.size a + S10000x128.size a := by
  show i ∈ ((View.whole main_v35).slice (win0_2.rect t)).set ↔ _
  rw [View.set_slice_whole, Rect.mem_set_unit]
  exact Iff.rfl

/-- Row r of the output is in the block of point r / 10000, which is written back. -/
theorem outBlks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  have ht : (i 0).val / 10000 < cfg0.N := by rw [hN]; omega
  obtain ⟨-, -, -, -, e4, e5⟩ := blockIndices ⟨(i 0).val / 10000, ht⟩
  have e4' : win0_2.index ⟨(i 0).val / 10000, ht⟩ (0 : Fin 2) = (i 0).val / 10000 := e4
  refine ⟨⟨(i 0).val / 10000, ht⟩, flush0_2 _, ?_⟩
  rw [mem_outBlk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    omega

theorem region0_value (c : Dev nD) (hx : ∀ p : Fin 100000, (xArr V c (ix2 p (0 : Fin 1))).toNat < 128) :
    (dat0 (F := Ideal) V c).arrAt 2 cfg0.N = Cert.Gcn.pick (xArr V c) (tblArr V c) :=
  (dat0 (F := Ideal) V c).arrAt_eq_of_cover 2 (Cert.Gcn.pick (xArr V c) (tblArr V c))
    (fun t _ => flushed_eq_pick V c hx t) outBlks_cover

end Cert.KernelIdeal.RegionValue
end
-- ==== Proof.Region1.lean ====
/-
  The second kernel region's array.

  The region walks ten points. Point t stages rows 10000 t … 10000 t + 9999 of its first operand and the whole
  128 × 128 weight matrix, and writes back the same rows of the result: each staged row clipped at zero and contracted
  over its 128 columns against the weights. The ten row blocks tile the 100000 rows, so the array the region leaves is
  the clipped product of the two operands as the region finds them.
-/
import proofs.«419912_j49512382988633_1_alg».proof.Proof.RegionArrays
import proofs.«419912_j49512382988633_1_alg».proof.Proof.LibPlainDot
import Idealize.ShloMosaic.Lib.Pipeline.Value

noncomputable section
namespace Cert.KernelIdeal.RegionValue

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

namespace ReluDot

/-- The zero offsets of a whole-block access, however they are spelt. -/
theorem zeroOffsets : (![0, 0] : Fin 2 → Nat) = fun _ => 0 := funext fun a => by fin_cases a <;> rfl

/-- Row `p` of the `n`-th block of 10000 rows is row `10000 n + p` of the 100000. -/
def blockRow (n : Nat) (hn : n < 10) (p : Fin 10000) : Fin 100000 := ⟨n * 10000 + p.val, by have := p.isLt; omega⟩

/-- Entry (p, q) of the block the body stores: row p clipped at zero, contracted against column q of the weights. -/
theorem stored_apply (x0 : Vec Ideal S10000x128 .f32) (x1 : Vec Ideal S128x128 .f32) (p : Fin 10000) (q : Fin 128) :
    k1_pay1 x0 x1 (ix2 p q) = ∑ k : Fin 128, max (x0 (ix2 p k)) (0 : EReal) * x1 (ix2 k q) := by
  unfold k1_pay1
  refine (Cert.LibPlainDot.matmul_zero_apply dot_S10000x128_S128x128_S10000x128_1_0_0_1_n_n rfl rfl rfl rfl rfl rfl none _ _ p q).trans ?_
  refine Finset.sum_congr rfl fun k _ => ?_
  rw [truncf_apply, truncf_apply, maximumf_apply, shapeCast_self, broadcast_apply]
  rw [Ideal.ofBits_def, Ideal.ofBits_zero_f32]

/-- When the two staged blocks are the `n`-th block of rows of `o` and the whole of `w`, the stored block is the
    `n`-th block of rows of the clipped product. -/
theorem stored_block (x0 : Vec Ideal S10000x128 .f32) (x1 : Vec Ideal S128x128 .f32)
    (o : FVec Ideal S100000x128 .f32) (w : FVec Ideal S128x128 .f32) (n : Nat) (hn : n < 10)
    (h0 : ∀ (p : Fin 10000) (k : Fin 128), x0 (ix2 p k) = o (ix2 (blockRow n hn p) k))
    (h1 : ∀ (k q : Fin 128), x1 (ix2 k q) = w (ix2 k q)) (p : Fin 10000) (q : Fin 128) :
    k1_pay1 x0 x1 (ix2 p q) = Cert.Gcn.reluDot o w (ix2 (blockRow n hn p) q) := by
  rw [stored_apply, Cert.Gcn.reluDot_apply]
  exact Finset.sum_congr rfl fun k _ => by rw [h0, h1]

/-- The printed index maps, decided over the grid: the two row windows are at block `t` of rows, the weights' window
    at its only block. -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The grid has ten points. -/
theorem point_lt (t : Fin cfg1.N) : t.val < 10 := lt_of_lt_of_eq t.isLt N_1

/-- The first window's block at point `t` is the `t`-th block of rows of the first operand. -/
theorem rowsBlock_apply (c : Dev nD) (t : Fin cfg1.N) (p : Fin 10000) (k : Fin 128) :
    (iblk1 V c 0 t : Vec Ideal S10000x128 .f32) (ix2 p k) = o1Arr V c (ix2 (blockRow t.val (point_lt t) p) k) := by
  obtain ⟨e0, e1, -⟩ := blockIndices t
  show V c main_v50 (((cfg1.win 0).blk t).view.emb (ix2 p k)) = V c main_v50 (ix2 (blockRow t.val (point_lt t) p) k)
  refine congrArg _ ?_
  funext a; apply Fin.ext
  match a with
  | ⟨0, _⟩ => show win1_0.index t (0 : Fin 2) * 10000 + 1 * p.val = t.val * 10000 + p.val; omega
  | ⟨1, _⟩ => show win1_0.index t (1 : Fin 2) * 128 + 1 * k.val = k.val; omega

/-- The second window's block at every point is the whole weight matrix. -/
theorem weightsBlock_apply (c : Dev nD) (t : Fin cfg1.N) (k q : Fin 128) :
    (iblk1 V c 1 t : Vec Ideal S128x128 .f32) (ix2 k q) = w2Arr V c (ix2 k q) := by
  obtain ⟨-, -, e2, e3, -⟩ := blockIndices t
  show V c main_arg6 (((cfg1.win 1).blk t).view.emb (ix2 k q)) = V c main_arg6 (ix2 k q)
  refine congrArg _ ?_
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- Entry (p, q) of the result's block at point `t` is entry (10000 t + p, q) of the array. -/
theorem resultBlock_emb (t : Fin cfg1.N) (p : Fin 10000) (q : Fin 128) :
    ((cfg1.win 2).blk t).view.emb (ix2 p q) = ix2 (blockRow t.val (point_lt t) p) q := by
  obtain ⟨-, -, -, -, e4, e5⟩ := blockIndices t
  funext a; apply Fin.ext
  match a with
  | ⟨0, _⟩ => show win1_2.index t (0 : Fin 2) * 10000 + 1 * p.val = t.val * 10000 + p.val; omega
  | ⟨1, _⟩ => show win1_2.index t (1 : Fin 2) * 128 + 1 * q.val = q.val; omega

/-- What point `t` writes back is block `t` of the clipped product of the two operands as the region finds them. -/
theorem writtenBack_eq (c : Dev nD) (t : Fin cfg1.N) :
    (dat1 (F := Ideal) V c).flushed 2 t
      = ((cfg1.win 2).blk t).view.read (Elt Ideal) (Cert.Gcn.reluDot (o1Arr V c) (w2Arr V c)) := by
  show (cfg1.win 2).cut (grid1.coords t) ((dat1 V c).after 2 t) = _
  rw [after1_2]
  unfold out1_2
  rw [View.canon_unit_zero zeroOffsets]
  simp only [View.ld_unit_zero (S := S10000x128) zeroOffsets, View.ld_unit_zero (S := S128x128) zeroOffsets]
  funext j
  obtain ⟨p, q, rfl⟩ : ∃ (p : Fin 10000) (q : Fin 128), j = ix2 p q := ⟨j 0, j 1, eq_ix2 j⟩
  show k1_pay1 (iblk1 V c 0 t) (iblk1 V c 1 t) (ix2 p q)
    = Cert.Gcn.reluDot (o1Arr V c) (w2Arr V c) (((cfg1.win 2).blk t).view.emb (ix2 p q))
  rw [resultBlock_emb]
  exact stored_block _ _ _ _ t.val (point_lt t) (rowsBlock_apply V c t) (weightsBlock_apply V c t) p q

/-- An index of the array is in point `t`'s block iff each coordinate is in the block's range on its axis. -/
theorem mem_resultBlock (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v51).slice (win1_2.rect t)).set ↔ _
  rw [View.set_slice_whole, Rect.mem_set_unit]
  exact Iff.rfl

/-- The ten blocks of 10000 rows tile the 100000 rows: row `r` is in the block of point `r / 10000`. -/
theorem rows_tiled (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, lt_of_lt_of_eq (by omega : (i 0).val / 10000 < 10) N_1.symm⟩, rfl⟩
  obtain ⟨-, -, -, -, e4, e5⟩ := blockIndices t
  refine ⟨t, flush1_2 t, ?_⟩
  rw [mem_resultBlock]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

end ReluDot

theorem region1_value (c : Dev nD) :
    (dat1 (F := Ideal) V c).arrAt 2 cfg1.N = Cert.Gcn.reluDot (o1Arr V c) (w2Arr V c) :=
  (dat1 V c).arrAt_eq_of_cover 2 (Cert.Gcn.reluDot (o1Arr V c) (w2Arr V c))
    (fun t _ => ReluDot.writtenBack_eq V c t) ReluDot.rows_tiled

end Cert.KernelIdeal.RegionValue
end
-- ==== Proof.Region2.lean ====
/-
  The third kernel region's array.

  The region walks ten points. Point t stages rows 10000 t … 10000 t + 9999 of its first operand, the whole 128 × 1
  weight column and the 1 × 1 bias, and writes back the same rows of the one-column result: each staged row clipped at
  zero and contracted over its 128 columns against the weight column, the bias added, the logistic function applied.
  The ten row blocks tile the 100000 rows, so the array the region leaves is that function of the three operands as
  the region finds them.
-/
import proofs.«419912_j49512382988633_1_alg».proof.Proof.RegionArrays
import proofs.«419912_j49512382988633_1_alg».proof.Proof.LibPlainDot
import Idealize.ShloMosaic.Lib.Pipeline.Value

noncomputable section
namespace Cert.KernelIdeal.RegionValue

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

namespace Head

/-- The zero offsets of a whole-block access, however they are spelt. -/
theorem zeroOffsets : (![0, 0] : Fin 2 → Nat) = fun _ => 0 := funext fun a => by fin_cases a <;> rfl

/-- Row `p` of the `n`-th block of 10000 rows is row `10000 n + p` of the 100000. -/
def blockRow (n : Nat) (hn : n < 10) (p : Fin 10000) : Fin 100000 := ⟨n * 10000 + p.val, by have := p.isLt; omega⟩

/-- The logistic function of a vector at an index is the logistic function of the element. -/
theorem logistic_apply {s : Shape} {φ : FTy} (a : FVec Ideal s φ) (i : s.Idx) : logistic a i = Ideal.logistic (a i) := rfl

/-- Row p clipped at zero, contracted against the weight column. -/
theorem clippedDot_apply (x0 : Vec Ideal S10000x128 .f32) (x1 : Vec Ideal S128x1 .f32) (p : Fin 10000) (u : Fin 1) :
    matmul dot_S10000x128_S128x1_S10000x1_1_0_0_1_n_n none
        (truncf .bf16 (maximumf (shapeCast S10000x128 x0 shapeCasts_S10000x128_S10000x128)
          (broadcast S10000x128 (Scalar.ofBits (F := Ideal) .f32 0x00000000#32))) bitsLt_bf16_f32)
        (truncf .bf16 x1 bitsLt_bf16_f32) (constant S10000x1 .f32 0x00000000#32) (ix2 p u)
      = ∑ k : Fin 128, max (x0 (ix2 p k)) (0 : EReal) * x1 (ix2 k u) := by
  refine (Cert.LibPlainDot.matmul_zero_apply dot_S10000x128_S128x1_S10000x1_1_0_0_1_n_n rfl rfl rfl rfl rfl rfl none _ _ p u).trans ?_
  refine Finset.sum_congr rfl fun k _ => ?_
  rw [truncf_apply, truncf_apply, maximumf_apply, shapeCast_self, broadcast_apply]
  rw [Ideal.ofBits_def, Ideal.ofBits_zero_f32]

/-- The 1 × 1 bias spread down the 10000 rows reads its one entry everywhere. -/
theorem bias_apply (x2 : Vec Ideal S1x1 .f32) (p : Fin 10000) (u : Fin 1) :
    broadcastTo S10000x1 (shapeCast S1x1 x2 shapeCasts_S1x1_S1x1) broadcasts_S1x1_S10000x1 (ix2 p u)
      = x2 (ix2 (0 : Fin 1) (0 : Fin 1)) := by
  rw [shapeCast_self]
  refine broadcastTo_apply x2 broadcasts_S1x1_S10000x1 (ix2 p u) (ix2 (0 : Fin 1) (0 : Fin 1)) fun a => ?_
  match a with
  | ⟨0, _⟩ => rfl
  | ⟨1, _⟩ => rfl

/-- Entry (p, u) of the block the body stores. -/
theorem stored_apply (x0 : Vec Ideal S10000x128 .f32) (x1 : Vec Ideal S128x1 .f32) (x2 : Vec Ideal S1x1 .f32)
    (p : Fin 10000) (u : Fin 1) :
    k2_pay1 x0 x1 x2 (ix2 p u)
      = Ideal.logistic ((∑ k : Fin 128, max (x0 (ix2 p k)) (0 : EReal) * x1 (ix2 k u)) + x2 (ix2 (0 : Fin 1) (0 : Fin 1))) := by
  unfold k2_pay1
  rw [logistic_apply, addf_apply, clippedDot_apply, bias_apply]

/-- When the three staged blocks are the `n`-th block of rows of `o`, the whole of `w` and the whole of `b`, the stored
    block is the `n`-th block of rows of the head's values. -/
theorem stored_block (x0 : Vec Ideal S10000x128 .f32) (x1 : Vec Ideal S128x1 .f32) (x2 : Vec Ideal S1x1 .f32)
    (o : FVec Ideal S100000x128 .f32) (w : FVec Ideal S128x1 .f32) (b : FVec Ideal S1x1 .f32) (n : Nat) (hn : n < 10)
    (h0 : ∀ (p : Fin 10000) (k : Fin 128), x0 (ix2 p k) = o (ix2 (blockRow n hn p) k))
    (h1 : ∀ (k : Fin 128) (u : Fin 1), x1 (ix2 k u) = w (ix2 k u))
    (h2 : ∀ (u v : Fin 1), x2 (ix2 u v) = b (ix2 u v)) (p : Fin 10000) (u : Fin 1) :
    k2_pay1 x0 x1 x2 (ix2 p u) = Cert.Gcn.head o w b (ix2 (blockRow n hn p) u) := by
  obtain rfl : u = 0 := Subsingleton.elim _ _
  rw [stored_apply, Cert.Gcn.head_apply, h2]
  exact congrArg (fun s => Ideal.logistic (s + b (ix2 (0 : Fin 1) (0 : Fin 1)))) (Finset.sum_congr rfl fun k _ => by rw [h0, h1])

/-- The printed index maps, decided over the grid: the two row windows are at block `t` of rows, the weight column's
    and the bias's windows at their only blocks. -/
theorem blockIndices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The grid has ten points. -/
theorem point_lt (t : Fin cfg2.N) : t.val < 10 := lt_of_lt_of_eq t.isLt N_2

/-- The first window's block at point `t` is the `t`-th block of rows of the first operand. -/
theorem rowsBlock_apply (c : Dev nD) (t : Fin cfg2.N) (p : Fin 10000) (k : Fin 128) :
    (iblk2 V c 0 t : Vec Ideal S10000x128 .f32) (ix2 p k) = o2Arr V c (ix2 (blockRow t.val (point_lt t) p) k) := by
  obtain ⟨e0, e1, -⟩ := blockIndices t
  show V c main_v66 (((cfg2.win 0).blk t).view.emb (ix2 p k)) = V c main_v66 (ix2 (blockRow t.val (point_lt t) p) k)
  refine congrArg _ ?_
  funext a; apply Fin.ext
  match a with
  | ⟨0, _⟩ => show win2_0.index t (0 : Fin 2) * 10000 + 1 * p.val = t.val * 10000 + p.val; omega
  | ⟨1, _⟩ => show win2_0.index t (1 : Fin 2) * 128 + 1 * k.val = k.val; omega

/-- The second window's block at every point is the whole weight column. -/
theorem weightsBlock_apply (c : Dev nD) (t : Fin cfg2.N) (k : Fin 128) (u : Fin 1) :
    (iblk2 V c 1 t : Vec Ideal S128x1 .f32) (ix2 k u) = w3Arr V c (ix2 k u) := by
  obtain ⟨-, -, e2, e3, -⟩ := blockIndices t
  show V c main_arg8 (((cfg2.win 1).blk t).view.emb (ix2 k u)) = V c main_arg8 (ix2 k u)
  refine congrArg _ ?_
  funext a; apply Fin.ext
  match a with
  | ⟨0, _⟩ => show win2_1.index t (0 : Fin 2) * 128 + 1 * k.val = k.val; omega
  | ⟨1, _⟩ => show win2_1.index t (1 : Fin 2) * 1 + 1 * u.val = u.val; omega

/-- The third window's block at every point is the whole 1 × 1 bias. -/
theorem biasBlock_apply (c : Dev nD) (t : Fin cfg2.N) (u v : Fin 1) :
    (iblk2 V c 2 t : Vec Ideal S1x1 .f32) (ix2 u v) = b3Arr V c (ix2 u v) := by
  obtain ⟨-, -, -, -, e4, e5, -⟩ := blockIndices t
  show V c main_v67 (((cfg2.win 2).blk t).view.emb (ix2 u v)) = V c main_v67 (ix2 u v)
  refine congrArg _ ?_
  funext a; apply Fin.ext
  match a with
  | ⟨0, _⟩ => show win2_2.index t (0 : Fin 2) * 1 + 1 * u.val = u.val; omega
  | ⟨1, _⟩ => show win2_2.index t (1 : Fin 2) * 1 + 1 * v.val = v.val; omega

/-- Entry (p, u) of the result's block at point `t` is entry (10000 t + p, u) of the array. -/
theorem resultBlock_emb (t : Fin cfg2.N) (p : Fin 10000) (u : Fin 1) :
    ((cfg2.win 3).blk t).view.emb (ix2 p u) = ix2 (blockRow t.val (point_lt t) p) u := by
  obtain ⟨-, -, -, -, -, -, e6, e7⟩ := blockIndices t
  funext a; apply Fin.ext
  match a with
  | ⟨0, _⟩ => show win2_3.index t (0 : Fin 2) * 10000 + 1 * p.val = t.val * 10000 + p.val; omega
  | ⟨1, _⟩ => show win2_3.index t (1 : Fin 2) * 1 + 1 * u.val = u.val; omega

/-- What point `t` writes back is block `t` of the head's values of the three operands as the region finds them. -/
theorem writtenBack_eq (c : Dev nD) (t : Fin cfg2.N) :
    (dat2 (F := Ideal) V c).flushed 3 t
      = ((cfg2.win 3).blk t).view.read (Elt Ideal) (Cert.Gcn.head (o2Arr V c) (w3Arr V c) (b3Arr V c)) := by
  show (cfg2.win 3).cut (grid2.coords t) ((dat2 V c).after 3 t) = _
  rw [after2_3]
  unfold out2_3
  rw [View.canon_unit_zero zeroOffsets]
  simp only [View.ld_unit_zero (S := S10000x128) zeroOffsets, View.ld_unit_zero (S := S128x1) zeroOffsets,
    View.ld_unit_zero (S := S1x1) zeroOffsets]
  funext j
  obtain ⟨p, u, rfl⟩ : ∃ (p : Fin 10000) (u : Fin 1), j = ix2 p u := ⟨j 0, j 1, eq_ix2 j⟩
  show k2_pay1 (iblk2 V c 0 t) (iblk2 V c 1 t) (iblk2 V c 2 t) (ix2 p u)
    = Cert.Gcn.head (o2Arr V c) (w3Arr V c) (b3Arr V c) (((cfg2.win 3).blk t).view.emb (ix2 p u))
  rw [resultBlock_emb]
  exact stored_block _ _ _ _ _ _ t.val (point_lt t) (rowsBlock_apply V c t) (weightsBlock_apply V c t)
    (biasBlock_apply V c t) p u

/-- An index of the array is in point `t`'s block iff each coordinate is in the block's range on its axis. -/
theorem mem_resultBlock (t : Fin cfg2.N) (i : S100000x1.Idx) :
    i ∈ ((cfg2.win 3).blk t).view.set ↔ ∀ a : Fin 2, win2_3.index t a * S10000x1.size a ≤ (i a).val
      ∧ (i a).val < win2_3.index t a * S10000x1.size a + S10000x1.size a := by
  show i ∈ ((View.whole main_v68).slice (win2_3.rect t)).set ↔ _
  rw [View.set_slice_whole, Rect.mem_set_unit]
  exact Iff.rfl

/-- The ten blocks of 10000 rows tile the 100000 rows: row `r` is in the block of point `r / 10000`. -/
theorem rows_tiled (i : S100000x1.Idx) :
    ∃ t : Fin cfg2.N, (cfg2.win 3).flush t = true ∧ i ∈ ((cfg2.win 3).blk t).view.set := by
  have hi0 : (i 0).val < 100000 := (i 0).isLt
  have hi1 : (i 1).val < 1 := (i 1).isLt
  obtain ⟨t, ht⟩ : ∃ t : Fin cfg2.N, t.val = (i 0).val / 10000 :=
    ⟨⟨(i 0).val / 10000, lt_of_lt_of_eq (by omega : (i 0).val / 10000 < 10) N_2.symm⟩, rfl⟩
  obtain ⟨-, -, -, -, -, -, e6, e7⟩ := blockIndices t
  refine ⟨t, flush2_3 t, ?_⟩
  rw [mem_resultBlock]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 1 ≤ (i 1).val ∧ (i 1).val < win2_3.index t (1 : Fin 2) * 1 + 1
    omega

end Head

theorem region2_value (c : Dev nD) :
    (dat2 (F := Ideal) V c).arrAt 3 cfg2.N = Cert.Gcn.head (o2Arr V c) (w3Arr V c) (b3Arr V c) :=
  (dat2 V c).arrAt_eq_of_cover 3 (Cert.Gcn.head (o2Arr V c) (w3Arr V c) (b3Arr V c))
    (fun t _ => Head.writtenBack_eq V c t) Head.rows_tiled

end Cert.KernelIdeal.RegionValue
end
-- ==== Proof.KTrace.lean ====
/-
  The kernel program's result, traced from the launch memory through its three regions and the host operations
  around them: the last boundary's contents at the result buffer are the head (region 2) of the second graph
  convolution of the second linear part (region 1) of the first graph convolution of the rows picked from the padded
  product table (region 0), read as a vector.
-/
import proofs.«419912_j49512382988633_1_alg».proof.Proof.KStretch
import proofs.«419912_j49512382988633_1_alg».proof.Proof.Region0
import proofs.«419912_j49512382988633_1_alg».proof.Proof.Region1
import proofs.«419912_j49512382988633_1_alg».proof.Proof.Region2

set_option maxRecDepth 16384

noncomputable section

namespace Cert.KernelIdeal.Trace

open Idealize.ShloMosaic Idealize.ShloMosaic.TcCoe Idealize.SL.Sem Idealize.ShloMosaic.StableHlo Idealize.ShloMosaic.ValueIdx
open Cert.KernelIdeal Cert.KernelIdeal.Gen Cert.KernelIdeal.HostFn Cert.KernelIdeal.Stretch Cert.KernelIdeal.RegionValue

variable (m : (ℓ : Loc nD τ sig) → Buf (Elt Ideal) ℓ) (ρ : Dev nD → PrngReg) (c : Dev nD)

/-- The argument arrays under their literal types. -/
abbrev xs : IVec S100000x1 32 := m ((c : Thread nD τ).loc main_arg0)
abbrev es : IVec S2x640000 32 := m ((c : Thread nD τ).loc main_arg1)
abbrev embs : FVec Ideal S100x10 .f32 := m ((c : Thread nD τ).loc main_arg3)
abbrev w1s : FVec Ideal S10x128 .f32 := m ((c : Thread nD τ).loc main_arg4)
abbrev b1s : FVec Ideal S128 .f32 := m ((c : Thread nD τ).loc main_arg5)
abbrev w2s : FVec Ideal S128x128 .f32 := m ((c : Thread nD τ).loc main_arg6)
abbrev b2s : FVec Ideal S128 .f32 := m ((c : Thread nD τ).loc main_arg7)
abbrev w3s : FVec Ideal S128x1 .f32 := m ((c : Thread nD τ).loc main_arg8)
abbrev b3s : FVec Ideal S1 .f32 := m ((c : Thread nD τ).loc main_arg9)

/-! ## At the first region's entry -/

theorem e0_src : W3 m ρ c (Proc.devRef .tc main_v5) = src2 (es m c) := pre_src (W0 m ρ c)
theorem e0_dst : W3 m ρ c (Proc.devRef .tc main_v6) = dst2 (es m c) := pre_dst (W0 m ρ c)
theorem e0_norm : W3 m ρ c (Proc.devRef .tc main_v30) = normCol (F := Ideal) (es m c) := pre_norm (W0 m ρ c)
theorem e0_table : W3 m ρ c (Proc.devRef .tc main_v34) = padTable (ew1 (embs m c) (w1s m c)) := pre_table (W0 m ρ c)
theorem e0_x : W3 m ρ c (Proc.devRef .tc main_arg0) = xs m c := pre_arg0 (W0 m ρ c)
theorem e0_b1 : W3 m ρ c (Proc.devRef .tc main_arg5) = b1s m c := pre_arg5 (W0 m ρ c)
theorem e0_w2 : W3 m ρ c (Proc.devRef .tc main_arg6) = w2s m c := pre_arg6 (W0 m ρ c)
theorem e0_b2 : W3 m ρ c (Proc.devRef .tc main_arg7) = b2s m c := pre_arg7 (W0 m ρ c)
theorem e0_w3 : W3 m ρ c (Proc.devRef .tc main_arg8) = w3s m c := pre_arg8 (W0 m ρ c)
theorem e0_b3 : W3 m ρ c (Proc.devRef .tc main_arg9) = b3s m c := pre_arg9 (W0 m ρ c)

/-! ## After the first region -/

/-- The first region's output: each node's row of the padded table. -/
theorem x0_out (hx : ∀ p : Fin 100000, (xs m c (ix2 p (0 : Fin 1))).toNat < 128) :
    W4 m ρ c (Proc.devRef .tc main_v35) = Cert.Gcn.pick (xs m c) (padTable (ew1 (embs m c) (w1s m c))) := by
  refine (W4_arr m ρ c 2).trans ?_
  have hx' : ∀ p : Fin 100000, (xArr (V3 m ρ) c (ix2 p (0 : Fin 1))).toNat < 128 := by
    intro p
    show ((W3 m ρ c (Proc.devRef .tc main_arg0) : IVec S100000x1 32) (ix2 p (0 : Fin 1))).toNat < 128
    rw [e0_x]; exact hx p
  refine (region0_value (V3 m ρ) c hx').trans ?_
  show Cert.Gcn.pick (W3 m ρ c (Proc.devRef .tc main_arg0)) (W3 m ρ c (Proc.devRef .tc main_v34)) = _
  rw [e0_x, e0_table]

theorem x0_src : W4 m ρ c (Proc.devRef .tc main_v5) = src2 (es m c) := (W4_of_ne m ρ c main_v5 (by decide)).trans (e0_src m ρ c)
theorem x0_dst : W4 m ρ c (Proc.devRef .tc main_v6) = dst2 (es m c) := (W4_of_ne m ρ c main_v6 (by decide)).trans (e0_dst m ρ c)
theorem x0_norm : W4 m ρ c (Proc.devRef .tc main_v30) = normCol (F := Ideal) (es m c) := (W4_of_ne m ρ c main_v30 (by decide)).trans (e0_norm m ρ c)
theorem x0_b1 : W4 m ρ c (Proc.devRef .tc main_arg5) = b1s m c := (W4_of_ne m ρ c main_arg5 (by decide)).trans (e0_b1 m ρ c)
theorem x0_w2 : W4 m ρ c (Proc.devRef .tc main_arg6) = w2s m c := (W4_of_ne m ρ c main_arg6 (by decide)).trans (e0_w2 m ρ c)
theorem x0_b2 : W4 m ρ c (Proc.devRef .tc main_arg7) = b2s m c := (W4_of_ne m ρ c main_arg7 (by decide)).trans (e0_b2 m ρ c)
theorem x0_w3 : W4 m ρ c (Proc.devRef .tc main_arg8) = w3s m c := (W4_of_ne m ρ c main_arg8 (by decide)).trans (e0_w3 m ρ c)
theorem x0_b3 : W4 m ρ c (Proc.devRef .tc main_arg9) = b3s m c := (W4_of_ne m ρ c main_arg9 (by decide)).trans (e0_b3 m ρ c)

/-! ## At the second region's entry -/

/-- The first graph convolution's output. -/
def out1 : FVec Ideal S100000x128 .f32 :=
  aggregate (src2 (es m c)) (dst2 (es m c)) (normCol (F := Ideal) (es m c))
    (Cert.Gcn.pick (xs m c) (padTable (ew1 (embs m c) (w1s m c)))) (b1s m c)

theorem e1_out (hx : ∀ p : Fin 100000, (xs m c (ix2 p (0 : Fin 1))).toNat < 128) :
    W5 m ρ c (Proc.devRef .tc main_v50) = out1 m c := by
  refine (mid1_out (W4 m ρ c)).trans ?_
  rw [x0_src, x0_dst, x0_norm, x0_out m ρ c hx, x0_b1]
  rfl

theorem e1_src : W5 m ρ c (Proc.devRef .tc main_v5) = src2 (es m c) := (mid1_v5 (W4 m ρ c)).trans (x0_src m ρ c)
theorem e1_dst : W5 m ρ c (Proc.devRef .tc main_v6) = dst2 (es m c) := (mid1_v6 (W4 m ρ c)).trans (x0_dst m ρ c)
theorem e1_norm : W5 m ρ c (Proc.devRef .tc main_v30) = normCol (F := Ideal) (es m c) := (mid1_v30 (W4 m ρ c)).trans (x0_norm m ρ c)
theorem e1_w2 : W5 m ρ c (Proc.devRef .tc main_arg6) = w2s m c := (mid1_arg6 (W4 m ρ c)).trans (x0_w2 m ρ c)
theorem e1_b2 : W5 m ρ c (Proc.devRef .tc main_arg7) = b2s m c := (mid1_arg7 (W4 m ρ c)).trans (x0_b2 m ρ c)
theorem e1_w3 : W5 m ρ c (Proc.devRef .tc main_arg8) = w3s m c := (mid1_arg8 (W4 m ρ c)).trans (x0_w3 m ρ c)
theorem e1_b3 : W5 m ρ c (Proc.devRef .tc main_arg9) = b3s m c := (mid1_arg9 (W4 m ρ c)).trans (x0_b3 m ρ c)

/-! ## After the second region -/

theorem x1_out (hx : ∀ p : Fin 100000, (xs m c (ix2 p (0 : Fin 1))).toNat < 128) :
    W6 m ρ c (Proc.devRef .tc main_v51) = Cert.Gcn.reluDot (out1 m c) (w2s m c) := by
  refine (W6_arr m ρ c 2).trans ?_
  refine (region1_value (V5 m ρ) c).trans ?_
  show Cert.Gcn.reluDot (W5 m ρ c (Proc.devRef .tc main_v50)) (W5 m ρ c (Proc.devRef .tc main_arg6)) = _
  rw [e1_out m ρ c hx, e1_w2]

theorem x1_src : W6 m ρ c (Proc.devRef .tc main_v5) = src2 (es m c) := (W6_of_ne m ρ c main_v5 (by decide)).trans (e1_src m ρ c)
theorem x1_dst : W6 m ρ c (Proc.devRef .tc main_v6) = dst2 (es m c) := (W6_of_ne m ρ c main_v6 (by decide)).trans (e1_dst m ρ c)
theorem x1_norm : W6 m ρ c (Proc.devRef .tc main_v30) = normCol (F := Ideal) (es m c) := (W6_of_ne m ρ c main_v30 (by decide)).trans (e1_norm m ρ c)
theorem x1_b2 : W6 m ρ c (Proc.devRef .tc main_arg7) = b2s m c := (W6_of_ne m ρ c main_arg7 (by decide)).trans (e1_b2 m ρ c)
theorem x1_w3 : W6 m ρ c (Proc.devRef .tc main_arg8) = w3s m c := (W6_of_ne m ρ c main_arg8 (by decide)).trans (e1_w3 m ρ c)
theorem x1_b3 : W6 m ρ c (Proc.devRef .tc main_arg9) = b3s m c := (W6_of_ne m ρ c main_arg9 (by decide)).trans (e1_b3 m ρ c)

/-! ## At the third region's entry -/

/-- The second graph convolution's output. -/
def out2 : FVec Ideal S100000x128 .f32 :=
  aggregate (src2 (es m c)) (dst2 (es m c)) (normCol (F := Ideal) (es m c)) (Cert.Gcn.reluDot (out1 m c) (w2s m c)) (b2s m c)

theorem e2_out (hx : ∀ p : Fin 100000, (xs m c (ix2 p (0 : Fin 1))).toNat < 128) :
    W7 m ρ c (Proc.devRef .tc main_v66) = out2 m c := by
  refine (mid2_out (W6 m ρ c)).trans ?_
  rw [x1_src, x1_dst, x1_norm, x1_out m ρ c hx, x1_b2]
  rfl

theorem e2_bias : W7 m ρ c (Proc.devRef .tc main_v67) = shapeCast S1x1 (b3s m c) Facts₀.shapeCasts_S1_S1x1 := by
  refine (mid2_bias (W6 m ρ c)).trans ?_
  rw [x1_b3]

theorem e2_w3 : W7 m ρ c (Proc.devRef .tc main_arg8) = w3s m c := (mid2_arg8 (W6 m ρ c)).trans (x1_w3 m ρ c)

/-! ## After the third region, and the result -/

theorem x2_out (hx : ∀ p : Fin 100000, (xs m c (ix2 p (0 : Fin 1))).toNat < 128) :
    W8 m ρ c (Proc.devRef .tc main_v68)
      = Cert.Gcn.head (out2 m c) (w3s m c) (shapeCast S1x1 (b3s m c) Facts₀.shapeCasts_S1_S1x1) := by
  refine (W8_arr m ρ c 3).trans ?_
  refine (region2_value (V7 m ρ) c).trans ?_
  show Cert.Gcn.head (W7 m ρ c (Proc.devRef .tc main_v66)) (W7 m ρ c (Proc.devRef .tc main_arg8)) (W7 m ρ c (Proc.devRef .tc main_v67)) = _
  rw [e2_out m ρ c hx, e2_w3, e2_bias]

/-- THE KERNEL'S RESULT: for node words below 128, the contents of the result buffer at the last boundary. -/
theorem result (hx : ∀ p : Fin 100000, (xs m c (ix2 p (0 : Fin 1))).toNat < 128) :
    W9 m ρ c (Proc.devRef .tc main_v69)
      = shapeCast S100000
          (Cert.Gcn.head (out2 m c) (w3s m c) (shapeCast S1x1 (b3s m c) Facts₀.shapeCasts_S1_S1x1))
          Facts₀.shapeCasts_S100000x1_S100000 := by
  refine (post_out (W8 m ρ c)).trans ?_
  rw [x2_out m ρ c hx]

end Cert.KernelIdeal.Trace

end
-- ==== Proof.RefTerm.lean ====
/-
  The reference's result, term by term, is the composition of its named host functions: the head over the second
  graph convolution over the second linear part over the first graph convolution over the first linear part. And
  the edge lists, the normalisation and the graph convolution are the same functions in both programs: the two
  programs spell them with the same operations.
-/
import proofs.«419912_j49512382988633_1_alg».proof.Proof.RefRun
import proofs.«419912_j49512382988633_1_alg».proof.Proof.HostTerms

set_option maxRecDepth 16384

noncomputable section

namespace Cert.Bridge

open Idealize.ShloMosaic Idealize.ShloMosaic.TcCoe Idealize.SL.Sem

variable {F : FTy → Type} [FloatOps F]

namespace R
open Cert.ReferenceIdeal Cert.ReferenceIdeal.HostFn

set_option maxHeartbeats 16000000 in
/-- The reference's result as the composition of its parts. -/
theorem res_eq (m : (ℓ : Loc nD τ sig) → Buf (Elt F) ℓ) (c : Dev nD) :
    Cert.ReferenceIdeal.RunCopy.res_main_v110 (F := F) m c
      = headR
          (aggregate (src2 (m ((c.tc : Thread nD τ).loc main_arg1))) (dst2 (m ((c.tc : Thread nD τ).loc main_arg1)))
            (normCol (m ((c.tc : Thread nD τ).loc main_arg1)))
            (lin1
              (aggregate (src2 (m ((c.tc : Thread nD τ).loc main_arg1))) (dst2 (m ((c.tc : Thread nD τ).loc main_arg1)))
                (normCol (m ((c.tc : Thread nD τ).loc main_arg1)))
                (lin0 (m ((c.tc : Thread nD τ).loc main_arg0)) (m ((c.tc : Thread nD τ).loc main_arg3)) (m ((c.tc : Thread nD τ).loc main_arg4)))
                (m ((c.tc : Thread nD τ).loc main_arg5)))
              (m ((c.tc : Thread nD τ).loc main_arg6)))
            (m ((c.tc : Thread nD τ).loc main_arg7)))
          (m ((c.tc : Thread nD τ).loc main_arg8)) (m ((c.tc : Thread nD τ).loc main_arg9)) := by
  unfold Cert.ReferenceIdeal.RunCopy.res_main_v110
  rfl

end R

/-! ## The shared host functions are the same in the two programs -/

theorem src2_same (e : IVec Cert.KernelIdeal.S2x640000 32) :
    Cert.KernelIdeal.HostFn.src2 e = Cert.ReferenceIdeal.HostFn.src2 e := rfl

theorem dst2_same (e : IVec Cert.KernelIdeal.S2x640000 32) :
    Cert.KernelIdeal.HostFn.dst2 e = Cert.ReferenceIdeal.HostFn.dst2 e := rfl

theorem normCol_same (e : IVec Cert.KernelIdeal.S2x640000 32) :
    Cert.KernelIdeal.HostFn.normCol (F := F) e = Cert.ReferenceIdeal.HostFn.normCol (F := F) e := rfl

theorem aggregate_same (s d : IVec Cert.KernelIdeal.S740000 32) (nc : FVec F Cert.KernelIdeal.S740000x1 .f32)
    (xl : FVec F Cert.KernelIdeal.S100000x128 .f32) (b : FVec F Cert.KernelIdeal.S128 .f32) :
    Cert.KernelIdeal.HostFn.aggregate s d nc xl b = Cert.ReferenceIdeal.HostFn.aggregate s d nc xl b := rfl

end Cert.Bridge

end
-- ==== Proof.LibAllOnes.lean ====
/-
  Truth values that are all ones, and index words in a range.

  A reduction by `and` from a true initial value over an array of truth values that are all true is true (the
  converse of reading a `jnp.all` back). A 32-bit word that is at least zero and below `n` as a SIGNED number is
  below `n` unsigned; such a word is not negative, so the test "negative?" answers false on it and the tests
  "at least zero?" and "at most n − 1?" answer true.
-/
import Idealize.ShloMosaic.Lib.ReduceAll
import Idealize.ShloMosaic.Lib.StableHlo.Predicate
import Idealize.ShloMosaic.Lib.ValueIdx

noncomputable section

namespace Cert.LibAllOnes

open Idealize.ShloMosaic Idealize.ShloMosaic.StableHlo.Predicate

/-- A left fold by `and` from true over true values is true. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and` from a true initial value over an array that is true everywhere is true. -/
theorem reduce_andi_ones {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_ones x hx _

/-- A word in [0, n) as a signed number is below n unsigned. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [ofBool_eq_one_iff] at h0 h1
  simp only [BitVec.slt, BitVec.sle, decide_eq_true_eq] at h0 h1
  have h32 := w.isLt
  unfold BitVec.toInt at h0 h1
  split at h1 <;> simp at h0 h1 <;> omega

/-- A word below 2³¹ is not negative: the signed test against zero answers false. -/
theorem slt_zero (w : BitVec 32) (hw : w.toNat < 2 ^ 31) : IntOp.cmpi .slt w (0#32) = 0#1 := by
  refine ValueIdx.eq_zero_of_ne_one fun h => ?_
  have := (slt_iff_toNat (a := w) (b := 0#32) hw (by decide)).1 h
  simp at this

/-- A word below 2³¹ is at least zero as a signed number. -/
theorem sge_zero (w : BitVec 32) (hw : w.toNat < 2 ^ 31) : IntOp.cmpi .sge w (0#32) = 1#1 :=
  (sge_iff_toNat (a := w) (b := 0#32) hw (by decide)).2 (by simp)

/-- A word at most `n` (below 2³¹) is at most `n` as a signed number. -/
theorem sle_ofNat (w : BitVec 32) (n : Nat) (hn : n < 2 ^ 31) (hw : w.toNat ≤ n) : IntOp.cmpi .sle w (BitVec.ofNat 32 n) = 1#1 := by
  have hb : (BitVec.ofNat 32 n).toNat = n := by simp [BitVec.toNat_ofNat]; omega
  exact (sle_iff_toNat (a := w) (b := BitVec.ofNat 32 n) (by omega) (by omega)).2 (by omega)

end Cert.LibAllOnes

end
-- ==== Proof.PreRange.lean ====
/-
  The precondition's integer part, read back: it is a conjunction of reductions by "and", the last two over the tests
  "at least 0" and "below 100" of every node word read as a signed number; all ones means every test answers true,
  and a word at least 0 and below 100 as a signed number is below 100 as a natural number.
-/
import proofs.«419912_j49512382988633_1_alg».proof.Defs
import proofs.«419912_j49512382988633_1_alg».proof.Proof.Gen.Pre_finite_inputs
import proofs.«419912_j49512382988633_1_alg».proof.Proof.LibAllOnes
import Idealize.ShloMosaic.Lib.ValueIdx
import Idealize.ShloMosaic.Lib.ReduceAll

noncomputable section
namespace Cert.Bridge

open Idealize.ShloMosaic Idealize.ShloMosaic.TcCoe Idealize.SL.Sem Idealize.ShloMosaic.ValueIdx

/-- Under the precondition every node word lies in [0, 100): it is read signed, at least 0 and below 100. -/
theorem x_range [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (p : Fin 100000) :
    ((m ((c.tc : Thread Cert.KernelIdeal.nD Cert.KernelIdeal.τ).loc Cert.KernelIdeal.main_arg0) : IVec Cert.KernelIdeal.S100000x1 32)
      (ix2 p (0 : Fin 1))).toNat < 100 := by
  -- the precondition at its one index: a conjunction of nine "for all" tests, the last two on the node words
  have e := congrFun (h c) ix0
  dsimp only [Cert.Pre_finite_inputs.fn, Cert.Pre_finite_inputs.fn_part1, Cert.Pre_finite_inputs.fn_part2] at e
  -- the last conjunct: every word is below 100 signed; the one before it: every word is at least 0 signed
  obtain ⟨e1, hlt⟩ := IntOp.andi_eq_one.1 e
  obtain ⟨-, hge⟩ := IntOp.andi_eq_one.1 e1
  haveI : Subsingleton Cert.Pre_finite_inputs.S_.Idx := ⟨fun a b => funext fun d => d.elim0⟩
  -- a conjunction over all entries that is true is true at entry (p, 0); the compared constants read 0 and 100 there
  have h0 := Host.reduce_andi_all _ _ _ _ _ hge (ix2 p (0 : Fin 1))
  have h1 := Host.reduce_andi_all _ _ _ _ _ hlt (ix2 p (0 : Fin 1))
  exact Cert.LibAllOnes.toNat_lt_of_signed _ 100 (by norm_num) h0 h1

end Cert.Bridge
end
-- ==== Proof.LibGatherRows.lean ====
/-
  A two-axis table gathered along its FIRST axis by a COLUMN of start indices, read at an index.

  `x[idx]` of `x : [N, B]` at `idx : [R]` lowers to a gather whose start indices are the `[R, 1]` column of `idx`
  and whose result `[R, B]` has one offset axis (the last, running over the table's second axis); the table's first
  axis is collapsed and indexed by the start index. The result element at `(r, b)` is the table's element at row
  `idx[r, 0]`, read as a signed integer and clamped into `[0, N - 1]`, and column `b`.
-/
import Idealize.ShloMosaic.Lib.ValueIdx

noncomputable section

namespace Idealize.ShloMosaic.GatherRows

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-- The dimension numbers of a take of whole rows by a column of start indices. -/
abbrev colDims (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- On the indexed axis the operand index is the clamped start index. -/
theorem col_axis0 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 0).val
      = min (idx (ix2 (j 0) (0 : Fin 1))).toInt.toNat (N - 1) := by
  show (colDims N B R wf).start j idx 0 + (colDims N B R wf).batchCoord j 0 + (colDims N B R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (colDims N B R wf).startIndexMap from List.mem_singleton.mpr rfl)]
  have hsi : (colDims N B R wf).siIdx j ⟨List.idxOf (0 : Fin 2) (colDims N B R wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the other axis it is the result's offset coordinate. -/
theorem col_axis1 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 1).val = (j 1).val := by
  show (colDims N B R wf).start j idx 1 + (colDims N B R wf).batchCoord j 1 + (colDims N B R wf).offCoord j 1 = _
  rw [GatherDims.batchCoord_eq_zero _ _ _ List.not_mem_nil]
  unfold GatherDims.start
  rw [dif_neg (show ¬ (1 : Fin 2) ∈ (colDims N B R wf).startIndexMap from
    fun h => absurd (List.mem_singleton.mp h) (by decide : ¬ (1 : Fin 2) = 0))]
  unfold GatherDims.offCoord
  rw [dif_pos (show (1 : Fin 2) ∈ (colDims N B R wf).sKept from
    (GatherDims.mem_sKept _ _).mpr ⟨fun h => absurd (List.mem_singleton.mp h) (by decide : ¬ (1 : Fin 2) = 0), List.not_mem_nil⟩)]
  simp only [Nat.zero_add, Nat.add_zero]
  rfl

/-- THE TAKE OF ROWS AT `(r, b)`: the table at row `idx[r, 0]` (signed, clamped) and column `b`. -/
theorem gather_col_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (j : (⟨2, ![R, B]⟩ : Shape).Idx) :
    Host.gather (colDims N B R wf) x idx j
      = x (ix2 (clampPos N hN (idx (ix2 (j 0) (0 : Fin 1)))) (j 1)) := by
  unfold Host.gather
  refine congrArg x (funext fun a => Fin.ext ?_)
  match a with
  | ⟨0, _⟩ => exact col_axis0 wf idx j
  | ⟨1, _⟩ => exact col_axis1 wf idx j

end Idealize.ShloMosaic.GatherRows

end
-- ==== Proof.LibScatterLast.lean ====
/-
  A scatter whose body returns the update ("set") reads back, at a result index, the LAST update that lands there:
  the host scatter folds the update indices in row-major order, each landing update overwriting the element.
-/
import Idealize.ShloMosaic.PureOps
import Mathlib.Data.List.Sort

namespace Idealize.ShloMosaic

/-- Folding the scatter step over a list none of whose update numbers lands on i leaves the element at i unchanged. -/
private theorem scatter_foldl_apply_of_none {α : Type} {s si u : Shape} {w : Nat} (d : ScatterDims s si u) (f : α → α → α)
    (idx : IVec si w) (upd : u.Idx → α) (i : s.Idx) :
    ∀ (l : List (Fin u.numel)) (r : s.Idx → α), (∀ n ∈ l, d.resultIdx? (u.rowMajor.symm n) idx ≠ some i) →
      (l.foldl (fun r n =>
        match d.resultIdx? (u.rowMajor.symm n) idx with
        | some i => fun i' => if i' = i then f (r i) (upd (u.rowMajor.symm n)) else r i'
        | none => r) r) i = r i := by
  intro l
  induction l with
  | nil => intro r _; rfl
  | cons n t ih =>
    intro r h
    rw [List.foldl_cons, ih _ (fun m hm => h m (List.mem_cons_of_mem _ hm))]
    have hn := h n (List.mem_cons_self ..)
    revert hn
    cases d.resultIdx? (u.rowMajor.symm n) idx with
    | none => intro _; rfl
    | some j =>
      intro hn
      have hij : i ≠ j := fun e => hn (by rw [e])
      simp only [if_neg hij]

/-- If update number n₀ (row-major) lands on result index i and no later update does, a set-scatter leaves that
    update's value at i. -/
theorem Host.scatter_set_apply_of_last {α : Type} {s si u : Shape} {w : Nat} (d : ScatterDims s si u) (x : s.Idx → α)
    (idx : IVec si w) (upd : u.Idx → α) (i : s.Idx) (n₀ : Fin u.numel)
    (h₀ : d.resultIdx? (u.rowMajor.symm n₀) idx = some i)
    (hlast : ∀ n : Fin u.numel, n₀ < n → d.resultIdx? (u.rowMajor.symm n) idx ≠ some i) :
    Host.scatter d (fun _ b => b) x idx upd i = upd (u.rowMajor.symm n₀) := by
  unfold Host.scatter
  -- the row-major list of update numbers is strictly increasing; cut it at n₀
  have hpw : (List.finRange u.numel).Pairwise (· < ·) := (List.sortedLT_finRange _).pairwise
  obtain ⟨a, t, hl⟩ := List.append_of_mem (List.mem_finRange n₀)
  rw [hl] at hpw ⊢
  have ht : ∀ n ∈ t, n₀ < n := (List.pairwise_cons.1 (List.pairwise_append.1 hpw).2.1).1
  rw [List.foldl_append, List.foldl_cons]
  -- every update after n₀ misses i, so the element written at step n₀ survives
  refine (scatter_foldl_apply_of_none d (fun _ b => b) idx upd i t _ (fun n hn => hlast n (ht n hn))).trans ?_
  rw [h₀]
  exact if_pos rfl

/-- If no update lands on result index i, a scatter leaves the operand's element there. -/
theorem Host.scatter_apply_of_none {α : Type} {s si u : Shape} {w : Nat} (d : ScatterDims s si u) (f : α → α → α) (x : s.Idx → α)
    (idx : IVec si w) (upd : u.Idx → α) (i : s.Idx)
    (hnone : ∀ n : Fin u.numel, d.resultIdx? (u.rowMajor.symm n) idx ≠ some i) :
    Host.scatter d f x idx upd i = x i :=
  scatter_foldl_apply_of_none d f idx upd i _ x (fun n _ => hnone n)

end Idealize.ShloMosaic
-- ==== Proof.LibScatterRows.lean ====
/-
  A block of rows set into the first rows of a taller array, read at an entry.

  A scatter with one start index, equal to zero, whose update is an A × N array and whose operand is a B × N array
  (A ≤ B), both axes of the update being window axes, places update entry (k, j) on result entry (k, j). The landing
  map is injective, so with the body that keeps the update the result's entry (k, j), for k below A, is the update's
  entry (k, j) whatever the operand held there.
-/
import proofs.«419912_j49512382988633_1_alg».proof.Proof.LibScatterLast
import Idealize.ShloMosaic.Lib.ValueIdx

noncomputable section

namespace Cert.LibScatterRows

open Idealize.ShloMosaic Idealize.ShloMosaic.ValueIdx

variable {A B N w : Nat}

/-- With the start index zero every update entry lands, and update entry (k, j) lands on result entry (k, j). -/
theorem resultIdx?_rows (d : ScatterDims ⟨2, ![B, N]⟩ ⟨1, ![1]⟩ ⟨2, ![A, N]⟩)
    (huw : d.updateWindowDims = [0, 1]) (hiw : d.insertedWindowDims = [])
    (hsd : d.scatterDimsToOperandDims = [0]) (hAB : A ≤ B)
    (idx : IVec ⟨1, ![1]⟩ w) (hidx : ∀ i, (idx i).toInt = 0) (ju : (⟨2, ![A, N]⟩ : Shape).Idx) :
    d.resultIdx? ju idx = some (ix2 ⟨(ju 0).val, lt_of_lt_of_le (idx2_lt0 ju) hAB⟩ (ju 1)) := by
  obtain ⟨uw, iw, sd, iv, wf⟩ := d
  dsimp only at huw hiw hsd
  subst huw hiw hsd
  generalize hd : (⟨[0, 1], [], [0], iv, wf⟩ : ScatterDims ⟨2, ![B, N]⟩ ⟨1, ![1]⟩ ⟨2, ![A, N]⟩) = d
  have hs : ∀ a, d.start ju idx a = 0 := by
    intro a
    unfold ScatterDims.start
    split
    · exact hidx _
    · rfl
  have hk : ∀ a : Fin 2, a ∈ d.sKept := by
    subst hd
    intro a
    show a ∈ (List.finRange 2).filter (· ∉ ([] : List (Fin 2)))
    revert a; decide
  have hw0 : d.window ju 0 = (ju 0).val := by
    unfold ScatterDims.window
    rw [dif_pos (hk 0)]
    subst hd
    rfl
  have hw1 : d.window ju 1 = (ju 1).val := by
    unfold ScatterDims.window
    rw [dif_pos (hk 1)]
    subst hd
    rfl
  have hall : ∀ a, 0 ≤ d.start ju idx a + d.window ju a ∧ d.start ju idx a + (d.window ju a : Int) < (⟨2, ![B, N]⟩ : Shape).size a := by
    intro a
    match a with
    | ⟨0, _⟩ =>
      show 0 ≤ d.start ju idx 0 + (d.window ju 0 : Int) ∧ d.start ju idx 0 + (d.window ju 0 : Int) < (B : Int)
      rw [hs, hw0]; have := idx2_lt0 ju; omega
    | ⟨1, _⟩ =>
      show 0 ≤ d.start ju idx 1 + (d.window ju 1 : Int) ∧ d.start ju idx 1 + (d.window ju 1 : Int) < (N : Int)
      rw [hs, hw1]; have := idx2_lt1 ju; omega
  unfold ScatterDims.resultIdx?
  rw [dif_pos hall]
  refine congrArg some (funext fun a => Fin.ext ?_)
  match a with
  | ⟨0, _⟩ => show (d.start ju idx 0 + d.window ju 0).toNat = (ju 0).val; rw [hs, hw0]; omega
  | ⟨1, _⟩ => show (d.start ju idx 1 + d.window ju 1).toNat = (ju 1).val; rw [hs, hw1]; omega

/-- THE READ AT (k, j), k below A: a set-scatter of an A × N block at start 0 leaves the block's entry (k, j) there. -/
theorem scatter_rows_apply {α : Type} (d : ScatterDims ⟨2, ![B, N]⟩ ⟨1, ![1]⟩ ⟨2, ![A, N]⟩)
    (huw : d.updateWindowDims = [0, 1]) (hiw : d.insertedWindowDims = [])
    (hsd : d.scatterDimsToOperandDims = [0]) (hAB : A ≤ B)
    (x : (⟨2, ![B, N]⟩ : Shape).Idx → α) (idx : IVec ⟨1, ![1]⟩ w) (hidx : ∀ i, (idx i).toInt = 0)
    (upd : (⟨2, ![A, N]⟩ : Shape).Idx → α) (k : Fin A) (j : Fin N) :
    Host.scatter d (fun _ b => b) x idx upd (ix2 ⟨k.val, lt_of_lt_of_le k.isLt hAB⟩ j) = upd (ix2 k j) := by
  have hland := resultIdx?_rows d huw hiw hsd hAB idx hidx
  have e := Host.scatter_set_apply_of_last d x idx upd (ix2 ⟨k.val, lt_of_lt_of_le k.isLt hAB⟩ j)
    ((⟨2, ![A, N]⟩ : Shape).rowMajor (ix2 k j))
    (by rw [Equiv.symm_apply_apply, hland]; rfl) (fun n hn hh => by
      rw [hland] at hh
      have h2 := congrFun (Option.some.inj hh)
      have e0 : ((⟨2, ![A, N]⟩ : Shape).rowMajor.symm n 0) = k := Fin.ext (by
        have h20 := congrArg Fin.val (h2 0)
        exact h20)
      have e1 : ((⟨2, ![A, N]⟩ : Shape).rowMajor.symm n 1) = j := h2 1
      have : (⟨2, ![A, N]⟩ : Shape).rowMajor.symm n = ix2 k j := by
        funext a
        match a with
        | ⟨0, _⟩ => exact e0
        | ⟨1, _⟩ => exact e1
      rw [← this, Equiv.apply_symm_apply] at hn
      exact lt_irrefl _ hn)
  rw [e, Equiv.symm_apply_apply]

end Cert.LibScatterRows

end
-- ==== Proof.Layer0.lean ====
/-
  The first layer's two spellings agree on node words inside the embedding table.

  The kernel program multiplies the 100-row embedding table by the first weight matrix once, sets the product into
  the first 100 rows of a 128-row table of zeros, and picks each node's row of it; the reference gathers each node's
  embedding row and multiplies it by the weight matrix. For a node word n below 100 the picked row is row n of the
  product, whose entry q is the sum over the 10 embedding columns of the table's entry (n, e) times the weight's
  entry (e, q); the gathered row is the table's row n (the word is not negative, so it is not counted from the end,
  and it is inside the table, so clamping leaves it), and its product with the weight matrix has the same sum at q.
-/
import proofs.«419912_j49512382988633_1_alg».proof.Proof.HostTerms
import proofs.«419912_j49512382988633_1_alg».proof.Proof.Spec
import proofs.«419912_j49512382988633_1_alg».proof.Proof.LibPlainDot
import proofs.«419912_j49512382988633_1_alg».proof.Proof.LibGatherRows
import proofs.«419912_j49512382988633_1_alg».proof.Proof.LibColumns
import proofs.«419912_j49512382988633_1_alg».proof.Proof.LibAllOnes
import proofs.«419912_j49512382988633_1_alg».proof.Proof.LibScatterRows
import Idealize.ShloMosaic.Lib.StableHlo.Predicate

noncomputable section
namespace Cert.Bridge

open Idealize.ShloMosaic Idealize.ShloMosaic.ValueIdx

/-- A vector of length n set up as an n × 1 column (its axis sent to the column's first axis) reads, at (p, 0), the
    vector's entry p. -/
theorem bcast_col_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  unfold broadcastInDim
  refine congrArg v (funext fun a => Fin.ext ?_)
  match a with
  | ⟨0, _⟩ =>
    split
    · next h1 => have : n = 1 := h1; have := p.isLt; show (0 : Nat) = p.val; omega
    · rfl

/-- A node word below 100 is not negative, so as a start index into the 100-row table it stands for itself. -/
theorem wrapX_apply (x : IVec Cert.KernelIdeal.S100000x1 32) (p : Fin 100000)
    (hn : (x (ix2 p (0 : Fin 1))).toNat < 100) :
    Cert.ReferenceIdeal.HostFn.wrapX x (ix2 p (0 : Fin 1)) = x (ix2 p (0 : Fin 1)) := by
  unfold Cert.ReferenceIdeal.HostFn.wrapX
  rw [bcast_col_apply, select_apply]
  have hv : shapeCast Cert.ReferenceIdeal.S100000 x Cert.ReferenceIdeal.Facts₀.shapeCasts_S100000x1_S100000 (ix1 p) = x (ix2 p (0 : Fin 1)) :=
    Cert.LibColumns.shapeCast_a1_a_apply x _ p
  have hc : cmpi .slt (shapeCast Cert.ReferenceIdeal.S100000 x Cert.ReferenceIdeal.Facts₀.shapeCasts_S100000x1_S100000)
      (broadcastInDim Cert.ReferenceIdeal.S100000 ![] Cert.ReferenceIdeal.Facts₀.bcast_S_S100000 (constantI Cert.ReferenceIdeal.S_ 32 0#32)) (ix1 p) = 0#1 := by
    show IntOp.cmpi .slt (shapeCast Cert.ReferenceIdeal.S100000 x Cert.ReferenceIdeal.Facts₀.shapeCasts_S100000x1_S100000 (ix1 p)) (0#32) = 0#1
    rw [hv]
    exact Cert.LibAllOnes.slt_zero _ (by omega)
  rw [hc, select_zero, hv]

/-- For node words inside the embedding table's 100 rows, picking each node's row of the zero-padded product table is
    the reference's first linear part: the node's embedding row times the first weight matrix. -/
theorem layer0_eq (x : IVec Cert.KernelIdeal.S100000x1 32) (emb : FVec Ideal Cert.KernelIdeal.S100x10 .f32)
    (w1 : FVec Ideal Cert.KernelIdeal.S10x128 .f32)
    (hx : ∀ p : Fin 100000, (x (ix2 p (0 : Fin 1))).toNat < 100) :
    Cert.Gcn.pick x (Cert.KernelIdeal.HostFn.padTable (Cert.KernelIdeal.HostFn.ew1 emb w1))
      = Cert.ReferenceIdeal.HostFn.lin0 x emb w1 := by
  funext i
  obtain ⟨p, q, rfl⟩ : ∃ p q, i = ix2 p q := ⟨i 0, i 1, eq_ix2 i⟩
  have hn := hx p
  -- the node's row of the table, as a row of the 100-row product
  let k : Fin 100 := ⟨(x (ix2 p (0 : Fin 1))).toNat, hn⟩
  have hrow : Cert.Gcn.rowOf (x (ix2 p (0 : Fin 1))) = ⟨k.val, lt_of_lt_of_le k.isLt (by norm_num : 100 ≤ 128)⟩ :=
    Fin.ext (Cert.Gcn.rowOf_val _ (by omega))
  -- left: the padded table's row k is the product's row k
  have hL : Cert.Gcn.pick x (Cert.KernelIdeal.HostFn.padTable (Cert.KernelIdeal.HostFn.ew1 emb w1)) (ix2 p q)
      = ∑ e : Fin 10, emb (ix2 k e) * w1 (ix2 e q) := by
    rw [Cert.Gcn.pick_apply, hrow]
    unfold Cert.KernelIdeal.HostFn.padTable
    rw [Cert.LibScatterRows.scatter_rows_apply Cert.KernelIdeal.scatter_S128x128_S1_S100x128_01_n_0_0 rfl rfl rfl (by norm_num)
      _ _ (fun _ => rfl) _ k q]
    exact Cert.LibPlainDot.dotGeneral_apply Cert.KernelIdeal.dot_S100x10_S10x128_S100x128_1_0_0_1_n_n rfl rfl rfl rfl rfl rfl
      none .single emb w1 k q
  -- right: the gathered row of node p is the table's row k
  have hG : ∀ e : Fin 10, Host.gather Cert.ReferenceIdeal.gather_S100x10_S100000x1_S100000x10_1_0_n_n_0_1_110 emb
      (Cert.ReferenceIdeal.HostFn.wrapX x) (ix2 p e) = emb (ix2 k e) := by
    intro e
    have hg := GatherRows.gather_col_apply (N := 100) (B := 10) (R := 100000) (by norm_num)
      Cert.ReferenceIdeal.Facts₀.gather_S100x10_S100000x1_S100000x10_1_0_n_n_0_1_110_wf emb (Cert.ReferenceIdeal.HostFn.wrapX x) (ix2 p e)
    refine hg.trans (congrArg emb ?_)
    show ix2 (GatherRows.clampPos 100 _ (Cert.ReferenceIdeal.HostFn.wrapX x (ix2 p (0 : Fin 1)))) e = ix2 k e
    rw [wrapX_apply x p hn]
    refine congrArg (fun r => ix2 r e) (Fin.ext ?_)
    show min (x (ix2 p (0 : Fin 1))).toInt.toNat (100 - 1) = (x (ix2 p (0 : Fin 1))).toNat
    rw [StableHlo.Predicate.toInt_eq_toNat_of_lt (by omega), Int.toNat_natCast]
    omega
  have hR : Cert.ReferenceIdeal.HostFn.lin0 x emb w1 (ix2 p q) = ∑ e : Fin 10, emb (ix2 k e) * w1 (ix2 e q) := by
    unfold Cert.ReferenceIdeal.HostFn.lin0
    rw [show Host.dotGeneral Cert.ReferenceIdeal.dot_S100000x10_S10x128_S100000x128_1_0_0_1_n_n none
        (Host.gather Cert.ReferenceIdeal.gather_S100x10_S100000x1_S100000x10_1_0_n_n_0_1_110 emb (Cert.ReferenceIdeal.HostFn.wrapX x)) w1 (ix2 p q)
        = _ from Cert.LibPlainDot.dotGeneral_apply Cert.ReferenceIdeal.dot_S100000x10_S10x128_S100000x128_1_0_0_1_n_n rfl rfl rfl rfl rfl rfl
          none .single _ w1 p q]
    exact Finset.sum_congr rfl fun e _ => by rw [hG e]
  rw [hL, hR]

end Cert.Bridge
end
-- ==== Proof.DotBridge.lean ====
/-
  The two later layers' entrywise descriptions against the reference's host terms.

  A plain product of an n × 128 array with a 128 × m matrix has, at entry (p, q), the sum over the 128 columns of
  the left entry (p, k) times the right entry (k, q); the reference clips the left operand at zero first, so its
  left entry is the larger of the operand's entry and zero. The head adds the one-entry bias (spread over a column)
  to such a product of one output column, and spells the logistic function 1 / (1 + exp (−z)), which over the
  extended reals is the logistic function's own definition.
-/
import proofs.«419912_j49512382988633_1_alg».proof.Proof.HostTerms
import proofs.«419912_j49512382988633_1_alg».proof.Proof.Spec
import proofs.«419912_j49512382988633_1_alg».proof.Proof.LibPlainDot
import proofs.«419912_j49512382988633_1_alg».proof.Proof.LibColumns
import Idealize.ShloMosaic.Lib.IdealHost

noncomputable section
namespace Cert.Bridge

open Idealize.ShloMosaic Idealize.ShloMosaic.ValueIdx

/-- Clipping at zero read at an entry: the larger of the entry and zero. -/
private theorem relu_apply (o : FVec Ideal Cert.ReferenceIdeal.S100000x128 .f32) (i : Cert.ReferenceIdeal.S100000x128.Idx) :
    Cert.ReferenceIdeal.HostFn.relu o i = max (o i) (0 : EReal) := by
  show max (o i) (Ideal.ofBits .f32 0x00000000#32) = max (o i) (0 : EReal)
  rw [Ideal.ofBits_zero_f32]

/-- A vector with one entry has one index. -/
private theorem idx_one_entry (k : (⟨1, ![1]⟩ : Shape).Idx) : k = ix1 (0 : Fin 1) :=
  (eq_ix1 k).trans (congrArg ix1 (Fin.ext (by
    have h : (k 0).val < 1 := (k 0).isLt
    show (k 0).val = 0
    omega)))

/-- The one-entry bias spread first to a 1 × 1 array and then down a column reads the bias's entry everywhere. -/
private theorem bias_column_apply {α : Type} (b : Cert.ReferenceIdeal.S1.Idx → α) (j : Cert.ReferenceIdeal.S100000x1.Idx) :
    broadcastInDim Cert.ReferenceIdeal.S100000x1 ![0, 1] Cert.ReferenceIdeal.Facts₀.bcast_S1x1_S100000x1_0_1
        (broadcastInDim Cert.ReferenceIdeal.S1x1 ![1] Cert.ReferenceIdeal.Facts₀.bcast_S1_S1x1_1 b) j
      = b (ix1 (0 : Fin 1)) := by
  unfold broadcastInDim
  exact congrArg b (idx_one_entry _)

/-- Clipping at zero and contracting against the second weight matrix, entry by entry, is the reference's second
    linear part. -/
theorem reluDot_eq_lin1 (o : FVec Ideal Cert.KernelIdeal.S100000x128 .f32) (w2 : FVec Ideal Cert.KernelIdeal.S128x128 .f32) :
    Cert.Gcn.reluDot o w2 = Cert.ReferenceIdeal.HostFn.lin1 o w2 := by
  funext i
  obtain ⟨p, q, rfl⟩ : ∃ p q, i = ix2 p q := ⟨i 0, i 1, eq_ix2 i⟩
  rw [Cert.Gcn.reluDot_apply]
  unfold Cert.ReferenceIdeal.HostFn.lin1
  -- the product at (p, q) is the sum over the 128 columns; its left entries are the clipped ones
  refine Eq.symm ((Cert.LibPlainDot.dotGeneral_apply _ rfl rfl rfl rfl rfl rfl none .single _ _ p q).trans ?_)
  refine Finset.sum_congr rfl fun k _ => ?_
  rw [relu_apply]

/-- The kernel's head read as a vector is the reference's head: the logistic function is 1 / (1 + exp (−z)). -/
theorem head_eq_headR (o : FVec Ideal Cert.KernelIdeal.S100000x128 .f32) (w3 : FVec Ideal Cert.KernelIdeal.S128x1 .f32)
    (b3 : FVec Ideal Cert.KernelIdeal.S1 .f32) :
    shapeCast Cert.KernelIdeal.S100000
        (Cert.Gcn.head o w3 (shapeCast Cert.KernelIdeal.S1x1 b3 Cert.KernelIdeal.Facts₀.shapeCasts_S1_S1x1))
        Cert.KernelIdeal.Facts₀.shapeCasts_S100000x1_S100000
      = Cert.ReferenceIdeal.HostFn.headR o w3 b3 := by
  funext i
  obtain ⟨p, rfl⟩ : ∃ p, i = ix1 p := ⟨i 0, eq_ix1 i⟩
  -- the left side at p: the logistic function of (row p's clipped product with the column) + the bias's entry
  rw [Cert.LibColumns.shapeCast_a1_a_apply, Cert.Gcn.head_apply, Cert.LibColumns.shapeCast_a_a1_apply]
  -- the right side at p, its pointwise operations read at the index
  have hR : Cert.ReferenceIdeal.HostFn.headR o w3 b3 (ix1 p)
      = Ideal.div (Ideal.ofBits .f32 0x3F800000#32) (Ideal.ofBits .f32 0x3F800000#32 + Ideal.exp (-(
          shapeCast Cert.ReferenceIdeal.S100000
            (addf (Host.dotGeneral Cert.ReferenceIdeal.dot_S100000x128_S128x1_S100000x1_1_0_0_1_n_n none (Cert.ReferenceIdeal.HostFn.relu o) w3)
              (broadcastInDim Cert.ReferenceIdeal.S100000x1 ![0, 1] Cert.ReferenceIdeal.Facts₀.bcast_S1x1_S100000x1_0_1
                (broadcastInDim Cert.ReferenceIdeal.S1x1 ![1] Cert.ReferenceIdeal.Facts₀.bcast_S1_S1x1_1 b3)))
            Cert.ReferenceIdeal.Facts₀.shapeCasts_S100000x1_S100000 (ix1 p)))) := rfl
  -- the product with the one column at (p, 0)
  have hd : Host.dotGeneral Cert.ReferenceIdeal.dot_S100000x128_S128x1_S100000x1_1_0_0_1_n_n none
        (Cert.ReferenceIdeal.HostFn.relu o) w3 (ix2 p (0 : Fin 1))
      = ∑ k : Fin 128, max (o (ix2 p k)) (0 : EReal) * w3 (ix2 k (0 : Fin 1)) :=
    (Cert.LibPlainDot.dotGeneral_apply _ rfl rfl rfl rfl rfl rfl none .single _ _ p (0 : Fin 1)).trans
      (Finset.sum_congr rfl fun k _ => by rw [relu_apply])
  rw [hR, Ideal.ofBits_one_f32, Cert.LibColumns.shapeCast_a1_a_apply, addf_apply, bias_column_apply, hd]
  -- what remains is the logistic function's definition
  rfl

end Cert.Bridge
end
-- ==== Proof.lean ====
/-
  Both programs compute, for every node, the logistic function of a graph network's head: node features looked up in
  an embedding table and multiplied by a weight matrix, two graph convolutions (gather the neighbours' rows, scale by
  the symmetric normalisation, add at the target rows, add a bias), each followed by clipping at zero and a product
  with a weight matrix, the last product with a single column and a bias.

  The kernel program does the three products in three row-blocked kernels (blocks of 10000 of the 100000 rows): the
  first as a one-hot matrix times the 128-row zero-padded product of the embedding table with the first weight matrix,
  the second and third after clipping their left operand at zero, the third adding the bias and applying the logistic
  function. Over the extended reals a one-hot row times a table is the table's row (0 · a = 0 and 1 · a = a for every
  a, infinite ones included), so for node words inside the table's 100 rows — the precondition's integer conjunct: the
  reference indexes the table with them — the first kernel's rows are the reference's embedding rows times the weight
  matrix; the other two kernels' blocks are the reference's products row for row; the host operations between the
  kernels are the reference's own, operation for operation; and the logistic function is 1 / (1 + exp (−z)), which is
  how the reference spells it. No step uses that the float inputs are finite.

  The three frames: the two kernel programs' are the generated frame certificates; the reference has no kernel and
  its frame is its run with the result dropped. The idealisation rewrote no operation, so there is nothing to
  preserve.
-/
import proofs.«419912_j49512382988633_1_alg».proof.Defs
import proofs.«419912_j49512382988633_1_alg».proof.Proof.Gen.Kernel
import proofs.«419912_j49512382988633_1_alg».proof.Proof.Gen.Kernel.Frame
import proofs.«419912_j49512382988633_1_alg».proof.Proof.Gen.KernelIdeal
import proofs.«419912_j49512382988633_1_alg».proof.Proof.Gen.KernelIdeal.Frame
import proofs.«419912_j49512382988633_1_alg».proof.Proof.Gen.ReferenceIdeal
import proofs.«419912_j49512382988633_1_alg».proof.Proof.Gen.Pre_finite_inputs
import proofs.«419912_j49512382988633_1_alg».proof.Proof.KRun
import proofs.«419912_j49512382988633_1_alg».proof.Proof.KTrace
import proofs.«419912_j49512382988633_1_alg».proof.Proof.RefRun
import proofs.«419912_j49512382988633_1_alg».proof.Proof.RefTerm
import proofs.«419912_j49512382988633_1_alg».proof.Proof.PreRange
import proofs.«419912_j49512382988633_1_alg».proof.Proof.Layer0
import proofs.«419912_j49512382988633_1_alg».proof.Proof.DotBridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunCopy.run (F := Ideal) m ρ)

theorem preserves : Cert.preserves_Kernel_KernelIdeal := trivial

/-- From memories agreeing on the arguments the two idealized programs end with the same result array: the kernel
    program's traced value, rewritten part by part into the reference's composition. -/
theorem algebraic : Cert.algebraic_KernelIdeal_ReferenceIdeal := by
  intro m ρ m' ρ' hpre hagree
  have hx : ∀ (c : Dev Cert.KernelIdeal.nD) (p : Fin 100000),
      (Cert.KernelIdeal.Trace.xs m c (ix2 p (0 : Fin 1))).toNat < 100 := fun c p => Cert.Bridge.x_range m hpre c p
  refine ⟨fun c => Cert.KernelIdeal.Gen.W9 m ρ c (Proc.devRef .tc Cert.KernelIdeal.main_v69),
    Cert.KernelIdeal.RunValue.run_value m ρ, ?_⟩
  refine (θ_run Cert.ReferenceIdeal.defs _ _).mono (fun _ h c => ⟨(h c).1.trans ?_, (h c).2⟩)
    (Cert.ReferenceIdeal.RunCopy.run (F := Ideal) m' ρ')
  obtain ⟨a0, a1, -, a3, a4, a5, a6, a7, a8, a9⟩ := hagree c
  rw [Cert.Bridge.R.res_eq, a0, a1, a3, a4, a5, a6, a7, a8, a9]
  show _ = Cert.KernelIdeal.Gen.W9 m ρ c (Proc.devRef .tc Cert.KernelIdeal.main_v69)
  rw [Cert.KernelIdeal.Trace.result m ρ c (fun p => lt_trans (hx c p) (by norm_num))]
  unfold Cert.KernelIdeal.Trace.out2 Cert.KernelIdeal.Trace.out1
  rw [Cert.Bridge.head_eq_headR, Cert.Bridge.reluDot_eq_lin1, Cert.Bridge.layer0_eq _ _ _ (hx c),
    Cert.Bridge.aggregate_same, Cert.Bridge.aggregate_same, Cert.Bridge.src2_same, Cert.Bridge.dst2_same,
    Cert.Bridge.normCol_same]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
